-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S5x64 : Shape := ⟨2, ![5, 64]⟩
abbrev S16x512x512x5 : Shape := ⟨4, ![16, 512, 512, 5]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S5x64 : S_.BroadcastsInDim S5x64 (![] : Fin 0 → Fin S5x64.rank)
  reducesTo_S5x64_S_d0_1 : S5x64.ReducesTo [0, 1] S_

variable [Facts]

def fn {F : FTy → Type} [FloatOps F] (main_arg0 : FVec F S16x2048x64 .f32) (main_arg1 : FVec F S5x64 .f32) (main_arg2 : IVec S16x512x512x5 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S5x64 .f32 := Host.absf main_arg1
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  main_v8
-- ==== Kernel.lean ====
abbrev S16x2048x64 : Shape := ⟨3, ![16, 2048, 64]⟩
abbrev S5x64 : Shape := ⟨2, ![5, 64]⟩
abbrev S16x512x512x5 : Shape := ⟨4, ![16, 512, 512, 5]⟩
abbrev S16x2048x5 : Shape := ⟨3, ![16, 2048, 5]⟩
abbrev S1x2048x64 : Shape := ⟨3, ![1, 2048, 64]⟩
abbrev S1x2048x5 : Shape := ⟨3, ![1, 2048, 5]⟩
abbrev S2048x64 : Shape := ⟨2, ![2048, 64]⟩
abbrev S64x5 : Shape := ⟨2, ![64, 5]⟩
abbrev S2048x5 : Shape := ⟨2, ![2048, 5]⟩
abbrev S16x64x32x5 : Shape := ⟨4, ![16, 64, 32, 5]⟩
abbrev S16x512x512 : Shape := ⟨3, ![16, 512, 512]⟩
abbrev S1x8x512x5 : Shape := ⟨4, ![1, 8, 512, 5]⟩
abbrev S1x64x32x5 : Shape := ⟨4, ![1, 64, 32, 5]⟩
abbrev S1x8x512 : Shape := ⟨3, ![1, 8, 512]⟩
abbrev S8x512 : Shape := ⟨2, ![8, 512]⟩
abbrev S1x8x512x1 : Shape := ⟨4, ![1, 8, 512, 1]⟩
abbrev S8x512x64 : Shape := ⟨3, ![8, 512, 64]⟩
abbrev S8x512x1 : Shape := ⟨3, ![8, 512, 1]⟩
abbrev S4096x64 : Shape := ⟨2, ![4096, 64]⟩
abbrev S1x64x32x1 : Shape := ⟨4, ![1, 64, 32, 1]⟩
abbrev S64x32 : Shape := ⟨2, ![64, 32]⟩
abbrev S4096x32 : Shape := ⟨2, ![4096, 32]⟩
abbrev S8x512x32 : Shape := ⟨3, ![8, 512, 32]⟩

abbrev nBuf : Space → Nat
  | .hbm => 6
  | .vmem => 11
  | .smem => 0
  | _ => 0

abbrev bufTy : (tb : Table) → Fin (tcTables nBuf tb) → BufTy
  | .hbm, ⟨0, _⟩ => ⟨S16x2048x64, .f32⟩
  | .hbm, ⟨1, _⟩ => ⟨S5x64, .f32⟩
  | .hbm, ⟨2, _⟩ => ⟨S16x512x512x5, .i32⟩
  | .hbm, ⟨3, _⟩ => ⟨S16x2048x5, .f32⟩
  | .hbm, ⟨4, _⟩ => ⟨S16x64x32x5, .f32⟩
  | .hbm, ⟨5, _⟩ => ⟨S16x512x512, .f32⟩
  | .local _ .vmem, ⟨0, _⟩ => ⟨S1x2048x64, .f32⟩
  | .local _ .vmem, ⟨1, _⟩ => ⟨S1x2048x64, .f32⟩
  | .local _ .vmem, ⟨2, _⟩ => ⟨S5x64, .f32⟩
  | .local _ .vmem, ⟨3, _⟩ => ⟨S1x2048x5, .f32⟩
  | .local _ .vmem, ⟨4, _⟩ => ⟨S1x2048x5, .f32⟩
  | .local _ .vmem, ⟨5, _⟩ => ⟨S1x8x512x5, .i32⟩
  | .local _ .vmem, ⟨6, _⟩ => ⟨S1x8x512x5, .i32⟩
  | .local _ .vmem, ⟨7, _⟩ => ⟨S1x64x32x5, .f32⟩
  | .local _ .vmem, ⟨8, _⟩ => ⟨S1x64x32x5, .f32⟩
  | .local _ .vmem, ⟨9, _⟩ => ⟨S1x8x512, .f32⟩
  | .local _ .vmem, ⟨10, _⟩ => ⟨S1x8x512, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 64], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x512x5 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x32x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  transposes_S5x64_p1_0_S64x5 : S5x64.Transposes [1, 0] S64x5
  inb_S1x2048x5_S1x2048x5_0_0_0 : ∀ a, (![0, 0, 0] : Fin 3 → Nat) a + S1x2048x5.size a ≤ S1x2048x5.size a
  h_S1x2048x5 : 0 < S1x2048x5.numel
  shapeCasts_S1x2048x5_S2048x5 : S1x2048x5.ShapeCasts S2048x5
  shapeCasts_S2048x5_S1x2048x5 : S2048x5.ShapeCasts S1x2048x5
  shapeCasts_S16x2048x5_S16x64x32x5 : S16x2048x5.ShapeCasts S16x64x32x5
  inb_S1x8x512x5_S1x8x512x1_0_0_0_0 : ∀ a, (![0, 0, 0, 0] : Fin 4 → Nat) a + S1x8x512x1.size a ≤ S1x8x512x5.size a
  h_S1x8x512x1 : 0 < S1x8x512x1.numel
  shapeCasts_S1x8x512x1_S8x512 : S1x8x512x1.ShapeCasts S8x512
  natLt_1_32 : 1 < 32
  iota_S8x512x64_d2_w32 : S8x512x64.Iotas .tc 32 [2]
  shapeCasts_S8x512_S8x512x1 : S8x512.ShapeCasts S8x512x1
  broadcasts_S8x512x1_S8x512x64 : S8x512x1.Broadcasts S8x512x64
  shapeCasts_S8x512x64_S4096x64 : S8x512x64.ShapeCasts S4096x64
  inb_S1x64x32x5_S1x64x32x1_0_0_0_0 : ∀ a, (![0, 0, 0, 0] : Fin 4 → Nat) a + S1x64x32x1.size a ≤ S1x64x32x5.size a
  h_S1x64x32x1 : 0 < S1x64x32x1.numel
  shapeCasts_S1x64x32x1_S64x32 : S1x64x32x1.ShapeCasts S64x32
  shapeCasts_S4096x32_S8x512x32 : S4096x32.ShapeCasts S8x512x32
  iota_S8x512x32_d2_w32 : S8x512x32.Iotas .tc 32 [2]
  broadcasts_S8x512x1_S8x512x32 : S8x512x1.Broadcasts S8x512x32
  reduces_S8x512x32_S8x512 : S8x512x32.Reduces [2] S8x512
  inb_S1x8x512x5_S1x8x512x1_0_0_0_1 : ∀ a, (![0, 0, 0, 1] : Fin 4 → Nat) a + S1x8x512x1.size a ≤ S1x8x512x5.size a
  inb_S1x64x32x5_S1x64x32x1_0_0_0_1 : ∀ a, (![0, 0, 0, 1] : Fin 4 → Nat) a + S1x64x32x1.size a ≤ S1x64x32x5.size a
  inb_S1x8x512x5_S1x8x512x1_0_0_0_2 : ∀ a, (![0, 0, 0, 2] : Fin 4 → Nat) a + S1x8x512x1.size a ≤ S1x8x512x5.size a
  inb_S1x64x32x5_S1x64x32x1_0_0_0_2 : ∀ a, (![0, 0, 0, 2] : Fin 4 → Nat) a + S1x64x32x1.size a ≤ S1x64x32x5.size a
  inb_S1x8x512x5_S1x8x512x1_0_0_0_3 : ∀ a, (![0, 0, 0, 3] : Fin 4 → Nat) a + S1x8x512x1.size a ≤ S1x8x512x5.size a
  inb_S1x64x32x5_S1x64x32x1_0_0_0_3 : ∀ a, (![0, 0, 0, 3] : Fin 4 → Nat) a + S1x64x32x1.size a ≤ S1x64x32x5.size a
  inb_S1x8x512x5_S1x8x512x1_0_0_0_4 : ∀ a, (![0, 0, 0, 4] : Fin 4 → Nat) a + S1x8x512x1.size a ≤ S1x8x512x5.size a
  inb_S1x64x32x5_S1x64x32x1_0_0_0_4 : ∀ a, (![0, 0, 0, 4] : Fin 4 → Nat) a + S1x64x32x1.size a ≤ S1x64x32x5.size a
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  dot_S2048x64_S64x5_S2048x5_1_0_0_1_n_n_wf : DotDims.WF S2048x64 S64x5 S2048x5 [1] [0] [0] [1] [] []
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x5.size a ≤ S16x2048x5.size a
  hwx0_2 : ∀ i : grid0.Coords, EltTy.bits .f32 = 32 ∨ (Rect.block (s := S16x2048x5) S1x2048x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x512x5.size a ≤ S16x512x512x5.size a
  hwx1_0 : ∀ i : grid1.Coords, EltTy.bits .i32 = 32 ∨ (Rect.block (s := S16x512x512x5) S1x8x512x5.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x32x5.size a ≤ S16x64x32x5.size a
  hwx1_1 : ∀ i : grid1.Coords, EltTy.bits .f32 = 32 ∨ (Rect.block (s := S16x64x32x5) S1x64x32x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x512.size a ≤ S16x512x512.size a
  hwx1_2 : ∀ i : grid1.Coords, EltTy.bits .f32 = 32 ∨ (Rect.block (s := S16x512x512) S1x8x512.size (cc1_transform_2 i) (hinb1_2 i)).WholeWords (EltTy.packing .f32)

variable [Facts₀]

def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x8x512x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x32x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x2048x64 : Shape := ⟨3, ![16, 2048, 64]⟩
abbrev S5x64 : Shape := ⟨2, ![5, 64]⟩
abbrev S16x512x512x5 : Shape := ⟨4, ![16, 512, 512, 5]⟩
abbrev S_ : Shape := ⟨0, ![]⟩
abbrev S16x2048x5 : Shape := ⟨3, ![16, 2048, 5]⟩
abbrev S16 : Shape := ⟨1, ![16]⟩
abbrev S16x1x1x1 : Shape := ⟨4, ![16, 1, 1, 1]⟩
abbrev S5 : Shape := ⟨1, ![5]⟩
abbrev S16x512x512x5x1 : Shape := ⟨5, ![16, 512, 512, 5, 1]⟩
abbrev S16x512x512x5x3 : Shape := ⟨5, ![16, 512, 512, 5, 3]⟩
abbrev S16x512x512 : Shape := ⟨3, ![16, 512, 512]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S5x64, .f32⟩
  | .hbm, ⟨2, _⟩ => ⟨S16x512x512x5, .i32⟩
  | .hbm, ⟨3, _⟩ => ⟨S_, .i32⟩
  | .hbm, ⟨4, _⟩ => ⟨S16x512x512x5, .i32⟩
  | .hbm, ⟨5, _⟩ => ⟨S16x512x512x5, .i1⟩
  | .hbm, ⟨6, _⟩ => ⟨S_, .i32⟩
  | .hbm, ⟨7, _⟩ => ⟨S16x512x512x5, .i32⟩
  | .hbm, ⟨8, _⟩ => ⟨S16x512x512x5, .i1⟩
  | .hbm, ⟨9, _⟩ => ⟨S16x512x512x5, .i1⟩
  | .hbm, ⟨10, _⟩ => ⟨S_, .i32⟩
  | .hbm, ⟨11, _⟩ => ⟨S_, .i32⟩
  | .hbm, ⟨12, _⟩ => ⟨S16x512x512x5, .i32⟩
  | .hbm, ⟨13, _⟩ => ⟨S16x512x512x5, .i32⟩
  | .hbm, ⟨14, _⟩ => ⟨S16x2048x5, .f32⟩
  | .hbm, ⟨15, _⟩ => ⟨S16, .i32⟩
  | .hbm, ⟨16, _⟩ => ⟨S16x1x1x1, .i32⟩
  | .hbm, ⟨17, _⟩ => ⟨S5, .i32⟩
  | .hbm, ⟨18, _⟩ => ⟨S_, .i32⟩
  | .hbm, ⟨19, _⟩ => ⟨S16x1x1x1, .i32⟩
  | .hbm, ⟨20, _⟩ => ⟨S16x1x1x1, .i1⟩
  | .hbm, ⟨21, _⟩ => ⟨S_, .i32⟩
  | .hbm, ⟨22, _⟩ => ⟨S16x1x1x1, .i32⟩
  | .hbm, ⟨23, _⟩ => ⟨S16x1x1x1, .i32⟩
  | .hbm, ⟨24, _⟩ => ⟨S16x1x1x1, .i32⟩
  | .hbm, ⟨25, _⟩ => ⟨S_, .i32⟩
  | .hbm, ⟨26, _⟩ => ⟨S16x512x512x5, .i32⟩
  | .hbm, ⟨27, _⟩ => ⟨S16x512x512x5, .i1⟩
  | .hbm, ⟨28, _⟩ => ⟨S_, .i32⟩
  | .hbm, ⟨29, _⟩ => ⟨S16x512x512x5, .i32⟩
  | .hbm, ⟨30, _⟩ => ⟨S16x512x512x5, .i32⟩
  | .hbm, ⟨31, _⟩ => ⟨S16x512x512x5, .i32⟩
  | .hbm, ⟨32, _⟩ => ⟨S_, .i32⟩
  | .hbm, ⟨33, _⟩ => ⟨S5, .i32⟩
  | .hbm, ⟨34, _⟩ => ⟨S5, .i1⟩
  | .hbm, ⟨35, _⟩ => ⟨S_, .i32⟩
  | .hbm, ⟨36, _⟩ => ⟨S5, .i32⟩
  | .hbm, ⟨37, _⟩ => ⟨S5, .i32⟩
  | .hbm, ⟨38, _⟩ => ⟨S5, .i32⟩
  | .hbm, ⟨39, _⟩ => ⟨S16x512x512x5, .i32⟩
  | .hbm, ⟨40, _⟩ => ⟨S16x512x512x5, .i32⟩
  | .hbm, ⟨41, _⟩ => ⟨S16x512x512x5x1, .i32⟩
  | .hbm, ⟨42, _⟩ => ⟨S16x512x512x5x1, .i32⟩
  | .hbm, ⟨43, _⟩ => ⟨S16x512x512x5x1, .i32⟩
  | .hbm, ⟨44, _⟩ => ⟨S16x512x512x5x3, .i32⟩
  | .hbm, ⟨45, _⟩ => ⟨S16x512x512x5, .f32⟩
  | .hbm, ⟨46, _⟩ => ⟨S16x512x512x5, .i32⟩
  | .hbm, ⟨47, _⟩ => ⟨S_, .i32⟩
  | .hbm, ⟨48, _⟩ => ⟨S16x512x512, .i32⟩
  | .hbm, ⟨49, _⟩ => ⟨S16x512x512, .f32⟩
  | .hbm, ⟨50, _⟩ => ⟨S_, .f32⟩
  | .hbm, ⟨51, _⟩ => ⟨S16x512x512, .f32⟩
  | .hbm, ⟨52, _⟩ => ⟨S16x512x512, .f32⟩
  | .hbm, ⟨53, _⟩ => ⟨S16x512x512x5, .f32⟩
  | .hbm, ⟨54, _⟩ => ⟨S16x512x512x5, .f32⟩
  | .hbm, ⟨55, _⟩ => ⟨S_, .f32⟩
  | .hbm, ⟨56, _⟩ => ⟨S16x512x512, .f32⟩
  | .hbm, ⟨57, _⟩ => ⟨S16x512x512, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S16x512x512x5 : S_.BroadcastsInDim S16x512x512x5 (![] : Fin 0 → Fin S16x512x512x5.rank)
  bcast_S16_S16x1x1x1_0 : S16.BroadcastsInDim S16x1x1x1 (![0] : Fin 1 → Fin S16x1x1x1.rank)
  bcast_S_S16x1x1x1 : S_.BroadcastsInDim S16x1x1x1 (![] : Fin 0 → Fin S16x1x1x1.rank)
  bcast_S_S5 : S_.BroadcastsInDim S5 (![] : Fin 0 → Fin S5.rank)
  bcast_S16x1x1x1_S16x512x512x5_0_1_2_3 : S16x1x1x1.BroadcastsInDim S16x512x512x5 (![0, 1, 2, 3] : Fin 4 → Fin S16x512x512x5.rank)
  bcast_S5_S16x512x512x5_3 : S5.BroadcastsInDim S16x512x512x5 (![3] : Fin 1 → Fin S16x512x512x5.rank)
  bcast_S16x512x512x5_S16x512x512x5x1_0_1_2_3 : S16x512x512x5.BroadcastsInDim S16x512x512x5x1 (![0, 1, 2, 3] : Fin 4 → Fin S16x512x512x5x1.rank)
  concatenates_S16x512x512x5x1_S16x512x512x5x1_S16x512x512x5x1_S16x512x512x5x3_d4 : Shape.Concatenates [S16x512x512x5x1, S16x512x512x5x1, S16x512x512x5x1] S16x512x512x5x3 4
  natLt_1_32 : 1 < 32
  reducesTo_S16x512x512x5_S16x512x512_d3 : S16x512x512x5.ReducesTo [3] S16x512x512
  h_S_ : 0 < S_.numel
  bcast_S_S16x512x512 : S_.BroadcastsInDim S16x512x512 (![] : Fin 0 → Fin S16x512x512.rank)
  dot_S16x2048x64_S5x64_S16x2048x5_2_1_01_0_n_n_wf : DotDims.WF S16x2048x64 S5x64 S16x2048x5 [2] [1] [0, 1] [0] [] []
  gather_S16x2048x5_S16x512x512x5x3_S16x512x512x5_n_012_n_n_012_4_111_wf : GatherDims.WF S16x2048x5 S16x512x512x5x3 S16x512x512x5 [] [0, 1, 2] [] [0, 1, 2] [] 4 ![1, 1, 1]

variable [Facts₀]

def dot_S16x2048x64_S5x64_S16x2048x5_2_1_01_0_n_n : DotDims S16x2048x64 S5x64 S16x2048x5 where
  lhsContracting := [2]
  rhsContracting := [1]
  lhsNonContracting := [0, 1]
  rhsNonContracting := [0]
  lhsBatch := []
  rhsBatch := []
  wf := dot_S16x2048x64_S5x64_S16x2048x5_2_1_01_0_n_n_wf
def gather_S16x2048x5_S16x512x512x5x3_S16x512x512x5_n_012_n_n_012_4_111 : GatherDims S16x2048x5 S16x512x512x5x3 S16x512x512x5 where
  offsetDims := []
  collapsedSliceDims := [0, 1, 2]
  operandBatchingDims := []
  startIndicesBatchingDims := []
  startIndexMap := [0, 1, 2]
  indexVectorDim := 4
  sliceSizes := ![1, 1, 1]
  wf := gather_S16x2048x5_S16x512x512x5x3_S16x512x512x5_n_012_n_n_012_4_111_wf

class Facts : Prop extends Facts₀ where

variable [Facts]
-- ==== Proof.Spec.lean ====
/-
  The mathematics both programs compute, stated once over plain functions of coordinates.

  scores[b, e, l]   = Σ_d emb[b, e, d] · vec[l, d]                                    (a table of 2048 rows per batch)
  out[b, r, q]      = ( Σ_l look(safe(p_l), l) · valid(p_l) ) / ( Σ_l valid(p_l) + ε )   where p_l = paths[b, r, q, l],
  valid(p) = 1 when 0 ≤ p ≤ 2047 (signed) and 0 otherwise, safe(p) = p when valid and 0 otherwise, and
  look(e, l) is the table row e, column l.  The sums over the five steps are written in the order the unrolled
  kernel adds them, starting from zero; ε is the f32 literal both programs share.
-/
import Idealize.ShloMosaic.PureOps.Ideal
import Idealize.ShloMosaic.Lib.ValueIdx

noncomputable section

open scoped BigOperators

namespace Cert.Spec

open Idealize.ShloMosaic Idealize.ShloMosaic.ValueIdx

abbrev SEmb : Shape := ⟨3, ![16, 2048, 64]⟩
abbrev SVec : Shape := ⟨2, ![5, 64]⟩
abbrev SPaths : Shape := ⟨4, ![16, 512, 512, 5]⟩
abbrev SScores : Shape := ⟨3, ![16, 2048, 5]⟩
abbrev STable : Shape := ⟨4, ![16, 64, 32, 5]⟩
abbrev SOut : Shape := ⟨3, ![16, 512, 512]⟩

/-- One entry of the score table: the inner product of embedding row (b, e) with step vector l. -/
def scoresAt (emb : SEmb.Idx → EReal) (vec : SVec.Idx → EReal) (b : Fin 16) (e : Fin 2048) (l : Fin 5) : EReal :=
  ∑ d : Fin 64, emb (ix3 b e d) * vec (ix2 l d)

/-- The validity bit of a path word: 1 exactly when 0 ≤ p ≤ 2047 as a signed integer. -/
def validW (p : BitVec 32) : BitVec 1 := IntOp.andi (IntOp.cmpi .sge p 0#32) (IntOp.cmpi .sle p 2047#32)

/-- The word actually looked up: the path word when valid, else 0. -/
def safeW (p : BitVec 32) : BitVec 32 := Scalar.select (validW p) p 0#32

/-- The row of the table a path word selects (the safe word is always below 2048, so the remainder changes nothing). -/
def safeIdx (p : BitVec 32) : Fin 2048 := ⟨(safeW p).toNat % 2048, Nat.mod_lt _ (by decide)⟩

/-- The validity bit as an extended real, 0 or 1 (the bit widened to a word and read as a signed integer). -/
def vf (p : BitVec 32) : EReal := ((((validW p).setWidth 32).toInt : ℝ) : EReal)

/-- One output element from the five path words `p` and the table `look`. -/
def encElem (look : Fin 2048 → Fin 5 → EReal) (p : Fin 5 → BitVec 32) : EReal :=
  Ideal.div
    (((((0 + look (safeIdx (p 0)) 0 * vf (p 0)) + look (safeIdx (p 1)) 1 * vf (p 1)) + look (safeIdx (p 2)) 2 * vf (p 2))
      + look (safeIdx (p 3)) 3 * vf (p 3)) + look (safeIdx (p 4)) 4 * vf (p 4))
    ((((((0 + vf (p 0)) + vf (p 1)) + vf (p 2)) + vf (p 3)) + vf (p 4)) + Ideal.ofBits .f32 0x3089705F#32)

end Cert.Spec

end
-- ==== Proof.ScoresValue.lean ====
/-
  The first region's value: the score array after the sixteen grid points.

  Point t loads block t of the embeddings ([1,2048,64]) and the whole step-vector array ([5,64]), multiplies the block's
  rows by the transposed vectors into a zero accumulator, and writes the [1,2048,5] result back as block t of the score
  array.  Read index by index this is scores[b, e, l] = Σ_d emb[b, e, d] · vec[l, d]; the sixteen blocks tile the array.
-/
import proofs.«429096_j22737556865444_2_alg».proof.Proof.Gen.KernelIdeal.Frame
import proofs.«429096_j22737556865444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ScoresValue

open Cert.KernelIdeal Cert.KernelIdeal.Gen Idealize.ShloMosaic Idealize.ShloMosaic.TcCoe Idealize.ShloMosaic.ValueIdx Idealize.SL.Sem
open Idealize.ShloMosaic.Pipeline (Dat)

/-! ## The body's one product, at an index -/

/-- The left operand of the product at result (e, l) and contraction position q reads row e … -/
theorem lhs_mm_0 (i : S2048x5.Idx) (q : dot_S2048x64_S64x5_S2048x5_1_0_0_1_n_n.contr.Idx) :
    (dot_S2048x64_S64x5_S2048x5_1_0_0_1_n_n.lhsIdx i q 0).val = (i 0).val := by
  unfold DotDims.lhsIdx
  rw [dif_neg (show ¬(0 : Fin S2048x64.rank) ∈ dot_S2048x64_S64x5_S2048x5_1_0_0_1_n_n.lhsBatch by decide), dif_pos (show (0 : Fin S2048x64.rank) ∈ dot_S2048x64_S64x5_S2048x5_1_0_0_1_n_n.lhsNonContracting by decide)]
  rfl
/-- … at column q; -/
theorem lhs_mm_1 (i : S2048x5.Idx) (q : dot_S2048x64_S64x5_S2048x5_1_0_0_1_n_n.contr.Idx) :
    (dot_S2048x64_S64x5_S2048x5_1_0_0_1_n_n.lhsIdx i q 1).val = (q ⟨0, by decide⟩).val :=
  dot_S2048x64_S64x5_S2048x5_1_0_0_1_n_n.lhsIdx_val_of_single rfl i q
/-- the right operand reads row q … -/
theorem rhs_mm_0 (i : S2048x5.Idx) (q : dot_S2048x64_S64x5_S2048x5_1_0_0_1_n_n.contr.Idx) :
    (dot_S2048x64_S64x5_S2048x5_1_0_0_1_n_n.rhsIdx i q 0).val = (q ⟨0, by decide⟩).val :=
  dot_S2048x64_S64x5_S2048x5_1_0_0_1_n_n.rhsIdx_val_of_single rfl i q
/-- … at column l. -/
theorem rhs_mm_1 (i : S2048x5.Idx) (q : dot_S2048x64_S64x5_S2048x5_1_0_0_1_n_n.contr.Idx) :
    (dot_S2048x64_S64x5_S2048x5_1_0_0_1_n_n.rhsIdx i q 1).val = (i 1).val := by
  unfold DotDims.rhsIdx
  rw [dif_neg (show ¬(1 : Fin S64x5.rank) ∈ dot_S2048x64_S64x5_S2048x5_1_0_0_1_n_n.rhsBatch by decide), dif_pos (show (1 : Fin S64x5.rank) ∈ dot_S2048x64_S64x5_S2048x5_1_0_0_1_n_n.rhsNonContracting by decide)]
  rfl

/-- A [2048,64] by [64,5] product into the zero accumulator, read at (e, l): the sum over the 64 columns. -/
theorem mm_apply (a : FVec Ideal S2048x64 .bf16) (b : FVec Ideal S64x5 .bf16) (e : Fin 2048) (l : Fin 5) :
    matmul dot_S2048x64_S64x5_S2048x5_1_0_0_1_n_n none a b (constant S2048x5 .f32 0x00000000#32) (ix2 e l)
      = ∑ d : Fin 64, a (ix2 e d) * b (ix2 d l) := by
  show FloatOps.matmul dot_S2048x64_S64x5_S2048x5_1_0_0_1_n_n none a b (constant S2048x5 .f32 0x00000000#32) (ix2 e l) = _
  rw [Ideal.matmul_constant_zero_apply, ← Equiv.sum_comp (ValueIdx.contrEquiv1 dot_S2048x64_S64x5_S2048x5_1_0_0_1_n_n 64 rfl rfl).symm]
  refine Finset.sum_congr rfl fun k _ => ?_
  have hk := ValueIdx.contrEquiv1_symm_val dot_S2048x64_S64x5_S2048x5_1_0_0_1_n_n 64 rfl rfl k
  have el : dot_S2048x64_S64x5_S2048x5_1_0_0_1_n_n.lhsIdx (ix2 e l) ((ValueIdx.contrEquiv1 dot_S2048x64_S64x5_S2048x5_1_0_0_1_n_n 64 rfl rfl).symm k) = ix2 e k := funext fun a => Fin.ext (by
    match a with
    | ⟨0, _⟩ => exact lhs_mm_0 _ _
    | ⟨1, _⟩ => exact (lhs_mm_1 _ _).trans hk)
  have er : dot_S2048x64_S64x5_S2048x5_1_0_0_1_n_n.rhsIdx (ix2 e l) ((ValueIdx.contrEquiv1 dot_S2048x64_S64x5_S2048x5_1_0_0_1_n_n 64 rfl rfl).symm k) = ix2 k l := funext fun a => Fin.ext (by
    match a with
    | ⟨0, _⟩ => exact (rhs_mm_0 _ _).trans hk
    | ⟨1, _⟩ => exact rhs_mm_1 _ _)
  rw [el, er]

/-- The body's payload at (0, e, l): row e of the embedding block against step vector l. -/
theorem pay_apply (x0 : Vec Ideal S1x2048x64 .f32) (x1 : Vec Ideal S5x64 .f32) (e : Fin 2048) (l : Fin 5) :
    k0_pay1 (F := Ideal) x0 x1 (ix3 (0 : Fin 1) e l) = ∑ d : Fin 64, x0 (ix3 (0 : Fin 1) e d) * x1 (ix2 l d) := by
  unfold k0_pay1
  rw [shapeCast_apply _ shapeCasts_S2048x5_S1x2048x5 (ix3 (0 : Fin 1) e l) (ix2 e l) (by
    rw [Shape.rowMajor_val_three, Shape.rowMajor_val_two]
    show e.val * 5 + l.val = ((0 : Fin 1).val * 2048 + e.val) * 5 + l.val
    simp), mm_apply]
  refine Finset.sum_congr rfl fun d _ => ?_
  rw [truncf_apply, shapeCast_apply x0 shapeCasts_S1x2048x64_S2048x64 (ix2 e d) (ix3 (0 : Fin 1) e d) (by
    rw [Shape.rowMajor_val_three, Shape.rowMajor_val_two]
    show ((0 : Fin 1).val * 2048 + e.val) * 64 + d.val = e.val * 64 + d.val
    simp),
    transpose_apply [1, 0] _ transposes_S5x64_p1_0_S64x5 (ix2 d l) (ix2 l d) (by
      intro b
      match b with
      | ⟨0, _⟩ => rfl
      | ⟨1, _⟩ => rfl), truncf_apply]

/-- The payload at any index of the block: the unit axis carries no information. -/
theorem pay_at (x0 : Vec Ideal S1x2048x64 .f32) (x1 : Vec Ideal S5x64 .f32) (y : S1x2048x5.Idx) :
    k0_pay1 (F := Ideal) x0 x1 y
      = ∑ d : Fin 64, x0 (ix3 (0 : Fin 1) (⟨(y 1).val, (y 1).isLt⟩ : Fin 2048) d) * x1 (ix2 (⟨(y 2).val, (y 2).isLt⟩ : Fin 5) d) := by
  obtain ⟨a, e, l, rfl⟩ : ∃ (a : Fin 1) (e : Fin 2048) (l : Fin 5), y = ix3 a e l := ⟨y 0, y 1, y 2, eq_ix3 y⟩
  obtain rfl : a = 0 := Subsingleton.elim _ _
  exact pay_apply x0 x1 e l

/-! ## What a point writes back -/

/-- The zero offsets of a whole-block access, on three axes … -/
theorem zero3 : (![0, 0, 0] : Fin 3 → Nat) = fun _ => 0 := funext fun a => by fin_cases a <;> rfl
/-- … and on two. -/
theorem zero2 : (![0, 0] : Fin 2 → Nat) = fun _ => 0 := funext fun a => by fin_cases a <;> rfl

variable (V : (c : Dev nD) → (b : Ref sig .tc) → Buf (Elt Ideal) ((c : Thread nD τ).loc b))

/-- The whole score array as one function of the two argument arrays. -/
abbrev scoresG (c : Dev nD) : S16x2048x5.Idx → EReal :=
  fun i => Cert.Spec.scoresAt (V c main_arg0) (V c main_arg1) (i 0) (i 1) (i 2)

/-- The printed index maps over the grid: at point t the embedding window and the score window sit at batch t, offset 0
    on the other axes; the step vectors' window is the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the score function: the payload at (0, e, l) sums row e of the embedding
    block, which is row (t, e) of the embedding array, against step vector l, read from the whole vector array. -/
theorem flushed_eq (c : Dev nD) (t : Fin cfg0.N) :
    (dat0 (F := Ideal) V c).flushed 2 t = ((cfg0.win 2).blk t).view.read (Elt Ideal) (scoresG V c) := by
  show (cfg0.win 2).cut (grid0.coords t) ((dat0 V c).after 2 t) = _
  rw [after0_2]
  unfold out0_2
  rw [View.canon_unit_zero zero3]
  simp only [View.ld_unit_zero (S := S1x2048x64) zero3, View.ld_unit_zero (S := S5x64) zero2]
  funext j
  show k0_pay1 (F := Ideal) (iblk0 V c 0 t) (iblk0 V c 1 t) ((win0 2).xinj (grid0.coords t) j) = scoresG V c (((cfg0.win 2).blk t).view.emb j)
  rw [pay_at]
  obtain ⟨a0, a1, a2, b0, b1, o0, o1, o2⟩ := idx_facts t
  refine Finset.sum_congr rfl fun d _ => ?_
  have hj0 : (j 0).val < 1 := (j 0).isLt
  have h0 : ((cfg0.win 0).blk t).view.emb (ix3 (0 : Fin 1) (⟨((win0 2).xinj (grid0.coords t) j 1).val, ((win0 2).xinj (grid0.coords t) j 1).isLt⟩ : Fin 2048) d)
      = ix3 (((cfg0.win 2).blk t).view.emb j 0) (((cfg0.win 2).blk t).view.emb j 1) d := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 64 + 1 * d.val = d.val; omega
  have h1 : ((cfg0.win 1).blk t).view.emb (ix2 (⟨((win0 2).xinj (grid0.coords t) j 2).val, ((win0 2).xinj (grid0.coords t) j 2).isLt⟩ : Fin 5) d)
      = ix2 (((cfg0.win 2).blk t).view.emb j 2) d := by
    funext a; apply Fin.ext
    match a with
    | ⟨0, _⟩ => show win0_1.index t (0 : Fin 2) * 5 + 1 * (j 2).val = win0_2.index t (2 : Fin 3) * 5 + 1 * (j 2).val; omega
    | ⟨1, _⟩ => show win0_1.index t (1 : Fin 2) * 64 + 1 * d.val = d.val; omega
  exact congrArg₂ (fun x y : EReal => x * y) (congrArg (V c main_arg0) h0) (congrArg (V c main_arg1) h1)

/-! ## The blocks cover the array -/

/-- An index of the score array is in point t's block iff each coordinate is in the block's range on its axis. -/
theorem mem_blk (t : Fin cfg0.N) (i : S16x2048x5.Idx) :
    i ∈ ((cfg0.win 2).blk t).view.set ↔ ∀ a : Fin 3, win0_2.index t a * S1x2048x5.size a ≤ (i a).val ∧ (i a).val < win0_2.index t a * S1x2048x5.size a + S1x2048x5.size a := by
  show i ∈ ((View.whole main_v0).slice (win0_2.rect t)).set ↔ _
  rw [View.set_slice_whole, Rect.mem_set_unit]
  exact Iff.rfl

/-- Index (b, e, l) lies in the block written at point b. -/
theorem covered (i : S16x2048x5.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 5 := (i 2).isLt
  have hN : grid0.N = 16 := N_0
  let t : Fin cfg0.N := ⟨(i 0).val, by show (i 0).val < grid0.N; omega⟩
  obtain ⟨-, -, -, -, -, o0, o1, o2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 5 ≤ (i 2).val ∧ (i 2).val < win0_2.index t (2 : Fin 3) * 5 + 5; omega

/-- After the first region the score array holds, at (b, e, l), the inner product of embedding row (b, e) with
    step vector l, whatever contents `V` the region was entered from. -/
theorem scores_arr (c : Dev nD) :
    (dat0 (F := Ideal) V c).arrAt 2 cfg0.N
      = (fun i : S16x2048x5.Idx => Cert.Spec.scoresAt (V c main_arg0) (V c main_arg1) (i 0) (i 1) (i 2)) :=
  (dat0 (F := Ideal) V c).arrAt_eq_of_cover 2 (scoresG V c) (fun t _ => flushed_eq V c t) covered

end Cert.KernelIdeal.ScoresValue

end
-- ==== Proof.GatherPay.lean ====
import proofs.«429096_j22737556865444_2_alg».proof.Proof.Gen.KernelIdeal.Frame
import proofs.«429096_j22737556865444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GatherPay

open Cert.KernelIdeal Cert.KernelIdeal.Gen Idealize.ShloMosaic Idealize.ShloMosaic.TcCoe Idealize.ShloMosaic.ValueIdx Idealize.SL.Sem
open Idealize.ShloMosaic.Pipeline (Dat)

/-- The table row/column an entry number splits into: e = 32·(e / 32) + e % 32 with e / 32 < 64. -/
abbrev hiOf (e : Fin 2048) : Fin 64 := ⟨e.val / 32, by have := e.isLt; omega⟩
abbrev loOf (e : Fin 2048) : Fin 32 := ⟨e.val % 32, Nat.mod_lt _ (by decide)⟩

/-! ## One word: validity, the safe word, and its split by 32 -/

/-- The rounding-down quotient by 32 as the body computes it on one word: the truncating quotient, less one
    when the signs of dividend and divisor differ and the remainder is not zero. -/
def hiS (s : BitVec 32) : BitVec 32 :=
  Scalar.select
    (IntOp.andi
      (IntOp.cmpi .ne (IntOp.subi ((IntOp.cmpi .sgt s 0#32).setWidth 32) ((IntOp.cmpi .slt s 0#32).setWidth 32))
        (Scalar.subi (Scalar.extui (Scalar.cmpi .sgt 32#32 0#32)) (Scalar.extui (Scalar.cmpi .slt 32#32 0#32))))
      (IntOp.cmpi .ne (IntOp.remsi .vector s 32#32) 0#32))
    (IntOp.subi (IntOp.divsi .vector s 32#32) 1#32)
    (IntOp.divsi .vector s 32#32)

/-- The remainder the body takes: the word less 32 times its quotient. -/
def loS (s : BitVec 32) : BitVec 32 := IntOp.subi s (IntOp.muli (hiS s) 32#32)

theorem hiS_ofNat : ∀ n : Fin 2048, hiS (BitVec.ofNat 32 n.val) = BitVec.ofNat 32 (n.val / 32) := by
  decide +kernel

theorem loS_ofNat : ∀ n : Fin 2048, loS (BitVec.ofNat 32 n.val) = BitVec.ofNat 32 (n.val % 32) := by
  decide +kernel

theorem valid_bounds {p : BitVec 32} (h : Cert.Spec.validW p = 1#1) : p.toNat < 2048 := by
  unfold Cert.Spec.validW IntOp.andi IntOp.cmpi at h
  cases h1 : (0#32).sle p <;> cases h2 : p.sle 2047#32 <;> simp [h1, h2] at h
  rw [BitVec.sle, decide_eq_true_eq, BitVec.toInt_eq_toNat_cond, BitVec.toInt_eq_toNat_cond] at h1 h2
  have := p.isLt
  simp at h1 h2
  split at h1 <;> split at h2 <;> omega

/-- The safe word is a table entry number. -/
theorem safeW_lt (p : BitVec 32) : (Cert.Spec.safeW p).toNat < 2048 := by
  unfold Cert.Spec.safeW Scalar.select
  split
  · rename_i h; exact valid_bounds h
  · decide

theorem safeIdx_val (p : BitVec 32) : (Cert.Spec.safeIdx p).val = (Cert.Spec.safeW p).toNat :=
  Nat.mod_eq_of_lt (safeW_lt p)

theorem hiS_safeW (p : BitVec 32) : hiS (Cert.Spec.safeW p) = BitVec.ofNat 32 (hiOf (Cert.Spec.safeIdx p)).val := by
  have h := hiS_ofNat ⟨(Cert.Spec.safeW p).toNat, safeW_lt p⟩
  rw [BitVec.ofNat_toNat, BitVec.setWidth_eq] at h
  rw [h]; show _ = BitVec.ofNat 32 ((Cert.Spec.safeIdx p).val / 32); rw [safeIdx_val]

theorem loS_safeW (p : BitVec 32) : loS (Cert.Spec.safeW p) = BitVec.ofNat 32 (loOf (Cert.Spec.safeIdx p)).val := by
  have h := loS_ofNat ⟨(Cert.Spec.safeW p).toNat, safeW_lt p⟩
  rw [BitVec.ofNat_toNat, BitVec.setWidth_eq] at h
  rw [h]; show _ = BitVec.ofNat 32 ((Cert.Spec.safeIdx p).val % 32); rw [safeIdx_val]

/-! ## One step of the body on whole (8, 512) vectors -/

/-- The path words of one step as an (8, 512) vector. -/
def wordV (L : Vec Ideal S1x8x512x1 .i32) : IVec S8x512 32 := shapeCast S8x512 L shapeCasts_S1x8x512x1_S8x512

/-- The validity bit as an extended real, elementwise. -/
def vfV (w : IVec S8x512 32) : FVec Ideal S8x512 .f32 :=
  sitofp .f32 (extui 32 (fun i => Cert.Spec.validW (w i) : IVec S8x512 1) natLt_1_32)

/-- The one-hot rows over 64 at the quotients `hi`, times the table column: the (4096, 32) product. -/
def rowSel (hi : IVec S8x512 32) (T : Vec Ideal S1x64x32x1 .f32) : FVec Ideal S4096x32 .f32 :=
  matmul dot_S4096x64_S64x32_S4096x32_1_0_0_1_n_n none
    (shapeCast S4096x64
      (truncf .bf16
        (sitofp .f32
          (extui 32
            (cmpi .eq (iota .tc S8x512x64 32 [2] iota_S8x512x64_d2_w32)
              (broadcastTo S8x512x64 (shapeCast S8x512x1 hi shapeCasts_S8x512_S8x512x1) broadcasts_S8x512x1_S8x512x64))
            natLt_1_32) : FVec Ideal S8x512x64 .f32)
        bitsLt_bf16_f32 : FVec Ideal S8x512x64 .bf16)
      shapeCasts_S8x512x64_S4096x64 : FVec Ideal S4096x64 .bf16)
    (truncf .bf16 (shapeCast S64x32 T shapeCasts_S1x64x32x1_S64x32 : FVec Ideal S64x32 .f32) bitsLt_bf16_f32 : FVec Ideal S64x32 .bf16)
    (constant S4096x32 .f32 0x00000000#32)

/-- The (4096, 32) product seen as (8, 512, 32), times the one-hot over 32 at the remainders `lo`, summed over the
    last axis. -/
def colSel (lo : IVec S8x512 32) (M : FVec Ideal S4096x32 .f32) : FVec Ideal S8x512 .f32 :=
  multiReduction .add [2] S8x512
    (mulf (shapeCast S8x512x32 M shapeCasts_S4096x32_S8x512x32 : FVec Ideal S8x512x32 .f32)
      (sitofp .f32
        (extui 32
          (cmpi .eq (iota .tc S8x512x32 32 [2] iota_S8x512x32_d2_w32)
            (broadcastTo S8x512x32 (shapeCast S8x512x1 lo shapeCasts_S8x512_S8x512x1) broadcasts_S8x512x1_S8x512x32))
          natLt_1_32) : FVec Ideal S8x512x32 .f32))
    0x00000000#32 reduces_S8x512x32_S8x512 (.inl rfl) rfl

/-- One step's contribution added to the running sum. -/
def stepAcc (acc : FVec Ideal S8x512 .f32) (w : IVec S8x512 32) (T : Vec Ideal S1x64x32x1 .f32) : FVec Ideal S8x512 .f32 :=
  addf acc (mulf (colSel (fun i => loS (Cert.Spec.safeW (w i))) (rowSel (fun i => hiS (Cert.Spec.safeW (w i))) T)) (vfV w))

/-- One step's validity added to the running count. -/
def stepCnt (cnt : FVec Ideal S8x512 .f32) (w : IVec S8x512 32) : FVec Ideal S8x512 .f32 := addf cnt (vfV w)

/-! Each of the five steps of the body is this step: the same operations, grouped differently. -/

theorem step0_acc (acc : FVec Ideal S8x512 .f32) (L : Vec Ideal S1x8x512x1 .i32) (T : Vec Ideal S1x64x32x1 .f32) :
    k1_pay11 (F := Ideal) acc (k1_pay5 L) (k1_pay8 L) (iota .tc S8x512x64 32 [2] iota_S8x512x64_d2_w32) (k1_pay9 L) T
      = stepAcc acc (wordV L) T := rfl

theorem step0_cnt (cnt : FVec Ideal S8x512 .f32) (L : Vec Ideal S1x8x512x1 .i32) :
    k1_pay12 (F := Ideal) cnt (k1_pay5 L) = stepCnt cnt (wordV L) := rfl

theorem step1_acc (acc : FVec Ideal S8x512 .f32) (L : Vec Ideal S1x8x512x1 .i32) (T : Vec Ideal S1x64x32x1 .f32) :
    k1_pay19 (F := Ideal) acc (k1_pay14 L) (k1_pay15 L) 32#32 (k1_pay16 L) (k1_pay17 L)
        (Scalar.extui (Scalar.cmpi .sgt 32#32 0#32)) T
      = stepAcc acc (wordV L) T := rfl

theorem step1_cnt (cnt : FVec Ideal S8x512 .f32) (L : Vec Ideal S1x8x512x1 .i32) :
    k1_pay20 (F := Ideal) cnt (k1_pay14 L) = stepCnt cnt (wordV L) := rfl

theorem step2_acc (acc : FVec Ideal S8x512 .f32) (L : Vec Ideal S1x8x512x1 .i32) (T : Vec Ideal S1x64x32x1 .f32) :
    k1_pay29 (F := Ideal) acc (k1_pay23 (k1_pay21 L) k1_pay22) (k1_pay26 (k1_pay21 L) k1_pay22)
        (k1_pay27 (k1_pay21 L) k1_pay22 T)
      = stepAcc acc (wordV L) T := rfl

theorem step2_cnt (cnt : FVec Ideal S8x512 .f32) (L : Vec Ideal S1x8x512x1 .i32) :
    k1_pay30 (F := Ideal) cnt (k1_pay23 (k1_pay21 L) k1_pay22) = stepCnt cnt (wordV L) := rfl

theorem step3_acc (acc : FVec Ideal S8x512 .f32) (L : Vec Ideal S1x8x512x1 .i32) (T : Vec Ideal S1x64x32x1 .f32) :
    k1_pay38 (F := Ideal) acc (k1_pay32 L) (k1_pay33 L) (k1_pay34 L) (k1_pay35 L) k1_pay36 T
      = stepAcc acc (wordV L) T := rfl

theorem step3_cnt (cnt : FVec Ideal S8x512 .f32) (L : Vec Ideal S1x8x512x1 .i32) :
    k1_pay39 (F := Ideal) cnt (k1_pay32 L) = stepCnt cnt (wordV L) := rfl

theorem step4_acc (acc : FVec Ideal S8x512 .f32) (L : Vec Ideal S1x8x512x1 .i32) (T : Vec Ideal S1x64x32x1 .f32) :
    k1_pay46 (F := Ideal) acc (k1_pay41 L) (k1_pay42 L) 32#32 (k1_pay43 L) (k1_pay44 L) T
      = stepAcc acc (wordV L) T := rfl

theorem step4_vf (L : Vec Ideal S1x8x512x1 .i32) : k1_pay45 (F := Ideal) (k1_pay41 L) = vfV (wordV L) := rfl

/-! ## The two selections at one element -/

theorem ind_one : (((((1#1 : BitVec 1).setWidth 32).toInt : ℤ) : ℝ) : EReal) = 1 := by
  have : ((1#1 : BitVec 1).setWidth 32).toInt = 1 := by decide
  rw [this]; simp

theorem ind_zero : (((((0#1 : BitVec 1).setWidth 32).toInt : ℤ) : ℝ) : EReal) = 0 := by
  have : ((0#1 : BitVec 1).setWidth 32).toInt = 0 := by decide
  rw [this]; simp

/-- A one-hot entry: the comparison of two small numbers, widened and read as an extended real, is 1 where they
    agree and 0 elsewhere. -/
theorem onehot_eq (k h : Nat) (hk : k < 2 ^ 32) (hh : h < 2 ^ 32) :
    FloatOps.sitofp (F := Ideal) .f32 ((IntOp.cmpi .eq (BitVec.ofNat 32 k) (BitVec.ofNat 32 h)).setWidth 32)
      = if k = h then 1 else 0 := by
  show ((((BitVec.ofBool (BitVec.ofNat 32 k == BitVec.ofNat 32 h)).setWidth 32).toInt : ℝ) : EReal) = _
  by_cases e : k = h
  · subst e
    rw [if_pos rfl, beq_self_eq_true]
    exact ind_one
  · have hne : (BitVec.ofNat 32 k == BitVec.ofNat 32 h) = false := by
      rw [beq_eq_false_iff_ne]
      intro hc
      apply e
      have := congrArg BitVec.toNat hc
      rw [BitVec.toNat_ofNat, BitVec.toNat_ofNat, Nat.mod_eq_of_lt hk, Nat.mod_eq_of_lt hh] at this
      exact this
    rw [if_neg e, hne]
    exact ind_zero

/-- Row r·512 + q of a (4096, ·) array is position (r, q) of the (8, 512, ·) one. -/
def rowOf (r : Fin 8) (q : Fin 512) : Fin 4096 := ⟨r.val * 512 + q.val, by have := r.isLt; have := q.isLt; omega⟩

theorem lift_ix (r : Fin 8) (q : Fin 512) (k : Fin 32) :
    reduces_S8x512x32_S8x512.lift (ix2 r q) k = ix3 r q k := by
  funext c
  match c with
  | ⟨0, _⟩ => exact Fin.ext rfl
  | ⟨1, _⟩ => exact Fin.ext rfl
  | ⟨2, _⟩ => exact Fin.ext rfl

theorem cast32_apply (M : FVec Ideal S4096x32 .f32) (r : Fin 8) (q : Fin 512) (j : Fin 32) :
    (shapeCast S8x512x32 M shapeCasts_S4096x32_S8x512x32) (ix3 r q j) = M (ix2 (rowOf r q) j) :=
  shapeCast_apply M _ _ _ (by
    rw [Shape.rowMajor_val_two, Shape.rowMajor_val_three]
    show (r.val * 512 + q.val) * 32 + j.val = (r.val * 512 + q.val) * 32 + j.val
    rfl)

theorem cast64_apply {α : Type} (X : S8x512x64.Idx → α) (r : Fin 8) (q : Fin 512) (k : Fin 64) :
    (shapeCast S4096x64 X shapeCasts_S8x512x64_S4096x64) (ix2 (rowOf r q) k) = X (ix3 r q k) :=
  shapeCast_apply X _ _ _ (by
    rw [Shape.rowMajor_val_two, Shape.rowMajor_val_three]
    show (r.val * 512 + q.val) * 64 + k.val = (r.val * 512 + q.val) * 64 + k.val
    rfl)

theorem castT_apply (T : Vec Ideal S1x64x32x1 .f32) (k : Fin 64) (j : Fin 32) :
    (shapeCast S64x32 T shapeCasts_S1x64x32x1_S64x32) (ix2 k j) = T (ix4 (0 : Fin 1) k j (0 : Fin 1)) :=
  shapeCast_apply T _ _ _ (by
    rw [Shape.rowMajor_val_two, Shape.rowMajor_val_four]
    show ((0 * 64 + k.val) * 32 + j.val) * 1 + 0 = k.val * 32 + j.val
    omega)

theorem bcast_apply {n : Nat} (v : IVec S8x512 32) (hb : S8x512x1.Broadcasts ⟨3, ![8, 512, n]⟩) (r : Fin 8) (q : Fin 512) (k : Fin n) :
    (broadcastTo ⟨3, ![8, 512, n]⟩ (shapeCast S8x512x1 v shapeCasts_S8x512_S8x512x1) hb) (ix3 r q k) = v (ix2 r q) := by
  refine (broadcastTo_apply _ hb (ix3 r q k) (ix3 r q (0 : Fin 1)) (fun a => ?_)).trans ?_
  · match a with
    | ⟨0, _⟩ => rfl
    | ⟨1, _⟩ => rfl
    | ⟨2, _⟩ => rfl
  · exact shapeCast_apply v _ _ _ (by
      rw [Shape.rowMajor_val_two, Shape.rowMajor_val_three]
      show r.val * 512 + q.val = (r.val * 512 + q.val) * 1 + 0
      omega)

/-! The matrix product's operand indices, axis by axis. -/

theorem lhs_dot_0 (i : S4096x32.Idx) (q : dot_S4096x64_S64x32_S4096x32_1_0_0_1_n_n.contr.Idx) :
    (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem lhs_dot_1 (i : S4096x32.Idx) (q : dot_S4096x64_S64x32_S4096x32_1_0_0_1_n_n.contr.Idx) :
    (dot_S4096x64_S64x32_S4096x32_1_0_0_1_n_n.lhsIdx i q 1).val = (q ⟨0, by decide⟩).val :=
  dot_S4096x64_S64x32_S4096x32_1_0_0_1_n_n.lhsIdx_val_of_single rfl i q
theorem rhs_dot_0 (i : S4096x32.Idx) (q : dot_S4096x64_S64x32_S4096x32_1_0_0_1_n_n.contr.Idx) :
    (dot_S4096x64_S64x32_S4096x32_1_0_0_1_n_n.rhsIdx i q 0).val = (q ⟨0, by decide⟩).val :=
  dot_S4096x64_S64x32_S4096x32_1_0_0_1_n_n.rhsIdx_val_of_single rfl i q
theorem rhs_dot_1 (i : S4096x32.Idx) (q : dot_S4096x64_S64x32_S4096x32_1_0_0_1_n_n.contr.Idx) :
    (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- The row selection: where the quotient at (r, q) is h, row r·512 + q of the product is row h of the table column,
    since every other term of the sum over the 64 rows carries a zero factor. -/
theorem rowSel_apply (hi : IVec S8x512 32) (T : Vec Ideal S1x64x32x1 .f32) (r : Fin 8) (q : Fin 512) (j : Fin 32) (h : Fin 64)
    (hh : hi (ix2 r q) = BitVec.ofNat 32 h.val) :
    rowSel hi T (ix2 (rowOf r q) j) = T (ix4 (0 : Fin 1) h j (0 : Fin 1)) := by
  unfold rowSel
  refine (Ideal.matmul_constant_zero_apply dot_S4096x64_S64x32_S4096x32_1_0_0_1_n_n none _ _ (ix2 (rowOf r q) j)).trans ?_
  rw [← Equiv.sum_comp (contrEquiv1 dot_S4096x64_S64x32_S4096x32_1_0_0_1_n_n 64 rfl rfl).symm]
  refine (Finset.sum_congr rfl (g := fun k : Fin 64 => (if k.val = h.val then (1 : EReal) else 0) * T (ix4 (0 : Fin 1) k j (0 : Fin 1))) (fun k _ => ?_)).trans ?_
  · have hk := contrEquiv1_symm_val dot_S4096x64_S64x32_S4096x32_1_0_0_1_n_n 64 rfl rfl k
    have el : dot_S4096x64_S64x32_S4096x32_1_0_0_1_n_n.lhsIdx (ix2 (rowOf r q) j) ((contrEquiv1 dot_S4096x64_S64x32_S4096x32_1_0_0_1_n_n 64 rfl rfl).symm k) = ix2 (rowOf r q) k := funext fun a => Fin.ext (by
      match a with
      | ⟨0, _⟩ => exact lhs_dot_0 _ _
      | ⟨1, _⟩ => exact (lhs_dot_1 _ _).trans hk)
    have er : dot_S4096x64_S64x32_S4096x32_1_0_0_1_n_n.rhsIdx (ix2 (rowOf r q) j) ((contrEquiv1 dot_S4096x64_S64x32_S4096x32_1_0_0_1_n_n 64 rfl rfl).symm k) = ix2 k j := funext fun a => Fin.ext (by
      match a with
      | ⟨0, _⟩ => exact (rhs_dot_0 _ _).trans hk
      | ⟨1, _⟩ => exact rhs_dot_1 _ _)
    rw [el, er, cast64_apply]
    show FloatOps.sitofp (F := Ideal) .f32 ((IntOp.cmpi .eq (iota .tc S8x512x64 32 [2] iota_S8x512x64_d2_w32 (ix3 r q k))
        (broadcastTo S8x512x64 (shapeCast S8x512x1 hi shapeCasts_S8x512_S8x512x1) broadcasts_S8x512x1_S8x512x64 (ix3 r q k))).setWidth 32)
      * (shapeCast S64x32 T shapeCasts_S1x64x32x1_S64x32) (ix2 k j) = _
    rw [iota_single_apply, bcast_apply, hh, castT_apply]
    show FloatOps.sitofp (F := Ideal) .f32 ((IntOp.cmpi .eq (BitVec.ofNat 32 k.val) (BitVec.ofNat 32 h.val)).setWidth 32) * _ = _
    rw [onehot_eq _ _ (by have := k.isLt; omega) (by have := h.isLt; omega)]
  · rw [Finset.sum_eq_single h (fun k _ hk => by rw [if_neg (fun e => hk (Fin.ext e)), zero_mul])
      (fun hn => absurd (Finset.mem_univ _) hn), if_pos rfl, one_mul]

/-- The column selection: where the remainder at (r, q) is l, the sum over the 32 columns keeps column l. -/
theorem colSel_apply (lo : IVec S8x512 32) (M : FVec Ideal S4096x32 .f32) (r : Fin 8) (q : Fin 512) (l : Fin 32)
    (hl : lo (ix2 r q) = BitVec.ofNat 32 l.val) :
    colSel lo M (ix2 r q) = M (ix2 (rowOf r q) l) := by
  unfold colSel
  refine (Ideal.multiReduction_add_single _ 0x00000000#32 reduces_S8x512x32_S8x512 (.inl rfl) rfl (ix2 r q)).trans ?_
  show ∑ k : Fin 32, _ = _
  refine (Finset.sum_congr rfl (g := fun k : Fin 32 => M (ix2 (rowOf r q) k) * (if k.val = l.val then (1 : EReal) else 0)) (fun k _ => ?_)).trans ?_
  · rw [lift_ix r q k]
    show (shapeCast S8x512x32 M shapeCasts_S4096x32_S8x512x32) (ix3 r q k)
      * FloatOps.sitofp (F := Ideal) .f32 ((IntOp.cmpi .eq (iota .tc S8x512x32 32 [2] iota_S8x512x32_d2_w32 (ix3 r q k))
        (broadcastTo S8x512x32 (shapeCast S8x512x1 lo shapeCasts_S8x512_S8x512x1) broadcasts_S8x512x1_S8x512x32 (ix3 r q k))).setWidth 32) = _
    rw [cast32_apply, iota_single_apply, bcast_apply, hl]
    show _ * FloatOps.sitofp (F := Ideal) .f32 ((IntOp.cmpi .eq (BitVec.ofNat 32 k.val) (BitVec.ofNat 32 l.val)).setWidth 32) = _
    rw [onehot_eq _ _ (by have := k.isLt; omega) (by have := l.isLt; omega)]
  · rw [Finset.sum_eq_single l (fun k _ hk => by rw [if_neg (fun e => hk (Fin.ext e)), mul_zero])
      (fun hn => absurd (Finset.mem_univ _) hn), if_pos rfl, mul_one]

/-! ## One step at one element -/

theorem vfV_apply (w : IVec S8x512 32) (i : S8x512.Idx) : vfV w i = Cert.Spec.vf (w i) := rfl

/-- One step at (r, q): the running sum gains the table entry at the split of the safe index, times the validity. -/
theorem stepAcc_apply (acc : FVec Ideal S8x512 .f32) (w : IVec S8x512 32) (T : Vec Ideal S1x64x32x1 .f32) (r : Fin 8) (q : Fin 512) :
    stepAcc acc w T (ix2 r q)
      = acc (ix2 r q) + T (ix4 (0 : Fin 1) (hiOf (Cert.Spec.safeIdx (w (ix2 r q)))) (loOf (Cert.Spec.safeIdx (w (ix2 r q)))) (0 : Fin 1))
          * Cert.Spec.vf (w (ix2 r q)) := by
  unfold stepAcc
  show acc (ix2 r q) + colSel _ _ (ix2 r q) * vfV w (ix2 r q) = _
  rw [colSel_apply _ _ r q (loOf (Cert.Spec.safeIdx (w (ix2 r q)))) (loS_safeW _),
    rowSel_apply _ _ r q _ (hiOf (Cert.Spec.safeIdx (w (ix2 r q)))) (hiS_safeW _), vfV_apply]

theorem stepCnt_apply (cnt : FVec Ideal S8x512 .f32) (w : IVec S8x512 32) (i : S8x512.Idx) :
    stepCnt cnt w i = cnt i + Cert.Spec.vf (w i) := rfl

/-! ## The loads through the sub-rectangles -/

/-- The path words of step l at (r, q): the block's entry (0, r, q, l). -/
theorem word_apply (x0 : Vec Ideal S1x8x512x5 .i32) (l : Fin 5)
    (inb : ∀ a, (![0, 0, 0, l.val] : Fin 4 → Nat) a + S1x8x512x1.size a ≤ S1x8x512x5.size a) (r : Fin 8) (q : Fin 512) :
    wordV (View.ld x0 (Rect.unit (s := S1x8x512x5) ![0, 0, 0, l.val] S1x8x512x1.size inb)) (ix2 r q)
      = x0 (ix4 (0 : Fin 1) r q l) := by
  unfold wordV
  refine (shapeCast_apply _ _ (ix2 r q) (ix4 (0 : Fin 1) r q (0 : Fin 1)) ?_).trans ?_
  · rw [Shape.rowMajor_val_two, Shape.rowMajor_val_four]
    show ((0 * 8 + r.val) * 512 + q.val) * 1 + 0 = r.val * 512 + q.val
    omega
  · show x0 _ = x0 _
    refine congrArg x0 (funext fun a => Fin.ext ?_)
    match a with
    | ⟨0, _⟩ => show 0 + 1 * 0 = 0; rfl
    | ⟨1, _⟩ => show 0 + 1 * r.val = r.val; omega
    | ⟨2, _⟩ => show 0 + 1 * q.val = q.val; omega
    | ⟨3, _⟩ => show l.val + 1 * 0 = l.val; omega

/-- The table column of step l at (h, j): the table's entry (0, h, j, l). -/
theorem col_apply (x1 : Vec Ideal S1x64x32x5 .f32) (l : Fin 5)
    (inb : ∀ a, (![0, 0, 0, l.val] : Fin 4 → Nat) a + S1x64x32x1.size a ≤ S1x64x32x5.size a) (h : Fin 64) (j : Fin 32) :
    View.ld x1 (Rect.unit (s := S1x64x32x5) ![0, 0, 0, l.val] S1x64x32x1.size inb) (ix4 (0 : Fin 1) h j (0 : Fin 1))
      = x1 (ix4 (0 : Fin 1) h j l) := by
  show x1 _ = x1 _
  refine congrArg x1 (funext fun a => Fin.ext ?_)
  match a with
  | ⟨0, _⟩ => show 0 + 1 * 0 = 0; rfl
  | ⟨1, _⟩ => show 0 + 1 * h.val = h.val; omega
  | ⟨2, _⟩ => show 0 + 1 * j.val = j.val; omega
  | ⟨3, _⟩ => show l.val + 1 * 0 = l.val; omega

theorem zero_acc (i : S8x512.Idx) : k1_pay2 (F := Ideal) i = 0 := by
  unfold k1_pay2
  show Ideal.ofBits .f32 0x00000000#32 = 0
  exact Ideal.ofBits_zero_f32

theorem zero_cnt (i : S8x512.Idx) : k1_pay3 (F := Ideal) i = 0 := by
  unfold k1_pay3
  show Ideal.ofBits .f32 0x00000000#32 = 0
  exact Ideal.ofBits_zero_f32

/-- What the gather body leaves in its output block at row r, column q: the masked, normalised sum over the five
    steps, each step's score read from the (64, 32) table at the split of the safe index. -/
theorem out1_2_apply (x0 : Vec Ideal S1x8x512x5 .i32) (x1 : Vec Ideal S1x64x32x5 .f32) (r : Fin 8) (q : Fin 512) :
    out1_2 (F := Ideal) x0 x1 (ix3 (0 : Fin 1) r q)
      = Cert.Spec.encElem (fun e l => x1 (ix4 (0 : Fin 1) (hiOf e) (loOf e) l)) (fun l => x0 (ix4 (0 : Fin 1) r q l)) := by
  have hz : (![0, 0, 0] : Fin 3 → Nat) = fun _ => 0 := by
    funext a
    match a with
    | ⟨0, _⟩ => rfl
    | ⟨1, _⟩ => rfl
    | ⟨2, _⟩ => rfl
  have w0 : wordV (View.ld x0 r1_0) (ix2 r q) = x0 (ix4 (0 : Fin 1) r q 0) := word_apply x0 0 _ r q
  have w1 : wordV (View.ld x0 r1_2) (ix2 r q) = x0 (ix4 (0 : Fin 1) r q 1) := word_apply x0 1 _ r q
  have w2 : wordV (View.ld x0 r1_4) (ix2 r q) = x0 (ix4 (0 : Fin 1) r q 2) := word_apply x0 2 _ r q
  have w3 : wordV (View.ld x0 r1_6) (ix2 r q) = x0 (ix4 (0 : Fin 1) r q 3) := word_apply x0 3 _ r q
  have w4 : wordV (View.ld x0 r1_8) (ix2 r q) = x0 (ix4 (0 : Fin 1) r q 4) := word_apply x0 4 _ r q
  have c0 : ∀ h j, View.ld x1 r1_1 (ix4 (0 : Fin 1) h j (0 : Fin 1)) = x1 (ix4 (0 : Fin 1) h j 0) := fun h j => col_apply x1 0 _ h j
  have c1 : ∀ h j, View.ld x1 r1_3 (ix4 (0 : Fin 1) h j (0 : Fin 1)) = x1 (ix4 (0 : Fin 1) h j 1) := fun h j => col_apply x1 1 _ h j
  have c2 : ∀ h j, View.ld x1 r1_5 (ix4 (0 : Fin 1) h j (0 : Fin 1)) = x1 (ix4 (0 : Fin 1) h j 2) := fun h j => col_apply x1 2 _ h j
  have c3 : ∀ h j, View.ld x1 r1_7 (ix4 (0 : Fin 1) h j (0 : Fin 1)) = x1 (ix4 (0 : Fin 1) h j 3) := fun h j => col_apply x1 3 _ h j
  have c4 : ∀ h j, View.ld x1 r1_9 (ix4 (0 : Fin 1) h j (0 : Fin 1)) = x1 (ix4 (0 : Fin 1) h j 4) := fun h j => col_apply x1 4 _ h j
  unfold out1_2
  refine (congrFun (View.canon_unit_zero hz _ _) (ix3 (0 : Fin 1) r q)).trans ?_
  unfold k1_pay1
  refine (shapeCast_ab_1ab_apply _ _ (0 : Fin 1) r q).trans ?_
  rw [divf_apply, addf_apply, addf_apply, broadcast_apply]
  rw [step4_acc, step3_acc, step2_acc, step1_acc, step0_acc, step4_vf, step3_cnt, step2_cnt, step1_cnt, step0_cnt]
  simp only [stepAcc_apply, stepCnt_apply, vfV_apply, zero_acc, zero_cnt]
  rw [w0, w1, w2, w3, w4, c0, c1, c2, c3, c4]
  rfl

end Cert.KernelIdeal.GatherPay

end
-- ==== Proof.GatherArr.lean ====
/-
  From blocks to the array, for the second region (the gather): a 16 × 64 grid whose point t has batch t / 64 and
  row block t % 64.  Point t reads the path words' block (batch t / 64, rows 8·(t % 64) … 8·(t % 64) + 7, all 512
  columns, all 5 steps) and the table's block (batch t / 64, the whole (64, 32, 5) table of that batch), and writes
  back the output's block (batch t / 64, the same 8 rows, all 512 columns).  Here: the relations between the printed
  index maps and the running order of the grid (`idx_facts`), each input block read off its array
  (`iblk_paths`, `iblk_table`), what a point writes back as a block of ONE whole-array function (`flushed_eq`), the
  blocks tiling the array (`mem_blk`, `cover`), and so the array after the region (`enc_arr`).  What the body leaves
  in its block as a function of its two input blocks is `GatherPay.out1_2_apply`; the buffer contents `V` the region
  is entered from stay a variable throughout.
-/
import proofs.«429096_j22737556865444_2_alg».proof.Proof.Gen.KernelIdeal.Frame
import proofs.«429096_j22737556865444_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«429096_j22737556865444_2_alg».proof.Proof.GatherPay

noncomputable section

open scoped BigOperators

namespace Cert.KernelIdeal.GatherArr

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.GatherPay (hiOf loOf)

variable (V : (c : Dev nD) → (b : Ref sig .tc) → Buf (Elt Ideal) ((c : Thread nD τ).loc b))

/-- The printed index maps against the running order of the 16 × 64 grid, decided point by point: point t has
    batch t / 64 and row block t % 64; the table's block follows the batch alone. -/
theorem idx_facts : ∀ t : Fin cfg1.N,
    win1_2.index t (0 : Fin 3) = t.val / 64 ∧ win1_2.index t (1 : Fin 3) = t.val % 64 ∧ win1_2.index t (2 : Fin 3) = 0
    ∧ win1_0.index t (0 : Fin 4) = t.val / 64 ∧ win1_0.index t (1 : Fin 4) = t.val % 64
    ∧ win1_0.index t (2 : Fin 4) = 0 ∧ win1_0.index t (3 : Fin 4) = 0
    ∧ win1_1.index t (0 : Fin 4) = t.val / 64 ∧ win1_1.index t (1 : Fin 4) = 0
    ∧ win1_1.index t (2 : Fin 4) = 0 ∧ win1_1.index t (3 : Fin 4) = 0 :=
  (by decide +kernel : ∀ t : Fin grid1.N, _)

/-- A path word of the block at point t is the array's word at batch t / 64, row 8·(t % 64) + r. -/
theorem iblk_paths (c : Dev nD) (t : Fin cfg1.N) (r : Fin 8) (q : Fin 512) (l : Fin 5) (k : S16x512x512x5.Idx)
    (h0 : (k 0).val = t.val / 64) (h1 : (k 1).val = t.val % 64 * 8 + r.val) (h2 : (k 2).val = q.val) (h3 : (k 3).val = l.val) :
    (iblk1 (F := Ideal) V c 0 t : Vec Ideal S1x8x512x5 .i32) (ix4 (0 : Fin 1) r q l) = V c main_arg2 k := by
  obtain ⟨-, -, -, e0, e1, e2, e3, -⟩ := idx_facts t
  unfold iblk1
  rw [View.read_apply]
  show V c main_arg2 _ = V c main_arg2 _
  congr 1
  funext a
  apply Fin.ext
  match a with
  | ⟨0, _⟩ => show win1_0.index t (0 : Fin 4) * 1 + 1 * (0 : Nat) = (k 0).val; omega
  | ⟨1, _⟩ => show win1_0.index t (1 : Fin 4) * 8 + 1 * r.val = (k 1).val; omega
  | ⟨2, _⟩ => show win1_0.index t (2 : Fin 4) * 512 + 1 * q.val = (k 2).val; omega
  | ⟨3, _⟩ => show win1_0.index t (3 : Fin 4) * 5 + 1 * l.val = (k 3).val; omega

/-- A table entry of the block at point t is the array's entry in batch t / 64. -/
theorem iblk_table (c : Dev nD) (t : Fin cfg1.N) (h : Fin 64) (lo : Fin 32) (l : Fin 5) (k : S16x64x32x5.Idx)
    (h0 : (k 0).val = t.val / 64) (h1 : (k 1).val = h.val) (h2 : (k 2).val = lo.val) (h3 : (k 3).val = l.val) :
    (iblk1 (F := Ideal) V c 1 t : Vec Ideal S1x64x32x5 .f32) (ix4 (0 : Fin 1) h lo l) = V c main_v1 k := by
  obtain ⟨-, -, -, -, -, -, -, e0, e1, e2, e3⟩ := idx_facts t
  unfold iblk1
  rw [View.read_apply]
  show V c main_v1 _ = V c main_v1 _
  congr 1
  funext a
  apply Fin.ext
  match a with
  | ⟨0, _⟩ => show win1_1.index t (0 : Fin 4) * 1 + 1 * (0 : Nat) = (k 0).val; omega
  | ⟨1, _⟩ => show win1_1.index t (1 : Fin 4) * 64 + 1 * h.val = (k 1).val; omega
  | ⟨2, _⟩ => show win1_1.index t (2 : Fin 4) * 32 + 1 * lo.val = (k 2).val; omega
  | ⟨3, _⟩ => show win1_1.index t (3 : Fin 4) * 5 + 1 * l.val = (k 3).val; omega

/-- The array the second region leaves: element (b, R, q) encodes the five path words at (b, R, q, ·) against
    batch b of the table. -/
abbrev encArr (c : Dev nD) : S16x512x512.Idx → EReal := fun i => Cert.Spec.encElem
  (fun e l => (V c main_v1) (ix4 (i 0) (hiOf e) (loOf e) l))
  (fun l => (V c main_arg2) (ix4 (i 0) (i 1) (i 2) l))

/-- What point t writes back is block t of that array: the body's block, entry by entry, with each input block
    read where the output block's rectangle sits (batch t / 64, rows 8·(t % 64) … 8·(t % 64) + 7). -/
theorem flushed_eq (c : Dev nD) (t : Fin cfg1.N) :
    (dat1 (F := Ideal) V c).flushed 2 t = ((cfg1.win 2).blk t).view.read (Elt Ideal) (encArr V c) := by
  show (cfg1.win 2).cut (grid1.coords t) ((dat1 V c).after 2 t) = _
  rw [after1_2]
  funext y
  obtain ⟨a, r, q, rfl⟩ : ∃ (a : Fin 1) (r : Fin 8) (q : Fin 512), y = ix3 a r q := ⟨y 0, y 1, y 2, eq_ix3 y⟩
  obtain rfl : a = 0 := Subsingleton.elim _ _
  rw [View.read_apply]
  show out1_2 (F := Ideal) (iblk1 V c 0 t) (iblk1 V c 1 t) (ix3 (0 : Fin 1) r q)
    = encArr V c (((cfg1.win 2).blk t).view.emb (ix3 (0 : Fin 1) r q))
  rw [GatherPay.out1_2_apply]
  obtain ⟨e0, e1, e2, -⟩ := idx_facts t
  have p0 : ((((cfg1.win 2).blk t).view.emb (ix3 (0 : Fin 1) r q)) 0).val = t.val / 64 := by
    show win1_2.index t (0 : Fin 3) * 1 + 1 * (0 : Nat) = _; omega
  have p1 : ((((cfg1.win 2).blk t).view.emb (ix3 (0 : Fin 1) r q)) 1).val = t.val % 64 * 8 + r.val := by
    show win1_2.index t (1 : Fin 3) * 8 + 1 * r.val = _; omega
  have p2 : ((((cfg1.win 2).blk t).view.emb (ix3 (0 : Fin 1) r q)) 2).val = q.val := by
    show win1_2.index t (2 : Fin 3) * 512 + 1 * q.val = _; omega
  show Cert.Spec.encElem _ _ = Cert.Spec.encElem _ _
  congr 1
  · funext e l
    exact iblk_table V c t (hiOf e) (loOf e) l _ p0 rfl rfl rfl
  · funext l
    exact iblk_paths V c t r q l _ p0 p1 p2 rfl

/-- An index of the array lies in point t's block exactly when each coordinate lies in the block's range on its axis. -/
theorem mem_blk (t : Fin cfg1.N) (i : S16x512x512.Idx) :
    i ∈ ((cfg1.win 2).blk t).view.set
      ↔ ∀ a : Fin 3, win1_2.index t a * S1x8x512.size a ≤ (i a).val
          ∧ (i a).val < win1_2.index t a * S1x8x512.size a + S1x8x512.size a := by
  show i ∈ ((View.whole main_v2).slice (win1_2.rect t)).set ↔ _
  rw [View.set_slice_whole, Rect.mem_set_unit]
  exact Iff.rfl

/-- The blocks tile the array: index (b, R, q) lies in the block of point 64·b + R / 8, and every point writes back. -/
theorem cover (i : S16x512x512.Idx) :
    ∃ t : Fin cfg1.N, (cfg1.win 2).flush t = true ∧ i ∈ ((cfg1.win 2).blk t).view.set := by
  have hN : cfg1.N = 1024 := N_1
  have hi0 : (i 0).val < 16 := (i 0).isLt
  have hi1 : (i 1).val < 512 := (i 1).isLt
  have hi2 : (i 2).val < 512 := (i 2).isLt
  obtain ⟨t, ht⟩ : ∃ t : Fin cfg1.N, t.val = (i 0).val * 64 + (i 1).val / 8 :=
    ⟨⟨(i 0).val * 64 + (i 1).val / 8, by rw [hN]; omega⟩, rfl⟩
  obtain ⟨e0, e1, e2, -⟩ := idx_facts t
  refine ⟨t, flush1_2 t, ?_⟩
  rw [mem_blk]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 8 ≤ (i 1).val ∧ (i 1).val < win1_2.index t (1 : Fin 3) * 8 + 8
    omega
  | ⟨2, _⟩ =>
    show win1_2.index t (2 : Fin 3) * 512 ≤ (i 2).val ∧ (i 2).val < win1_2.index t (2 : Fin 3) * 512 + 512
    omega

/-- After the second region the output array holds, at (b, r, q), the encoded element of the five path words at
    (b, r, q, ·) against batch b of the (64, 32, 5) table, whatever contents `V` the region was entered from. -/
theorem enc_arr (c : Dev nD) :
    (dat1 (F := Ideal) V c).arrAt 2 cfg1.N
      = (fun i : S16x512x512.Idx => Cert.Spec.encElem
          (fun e l => (V c main_v1) (ix4 (i 0) (hiOf e) (loOf e) l))
          (fun l => (V c main_arg2) (ix4 (i 0) (i 1) (i 2) l))) :=
  (dat1 (F := Ideal) V c).arrAt_eq_of_cover 2 (encArr V c) (fun t _ => flushed_eq V c t) cover

end Cert.KernelIdeal.GatherArr

end
-- ==== Proof.Bridge.lean ====
import proofs.«429096_j22737556865444_2_alg».proof.Proof.Gen.KernelIdeal.Frame
import proofs.«429096_j22737556865444_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«429096_j22737556865444_2_alg».proof.Proof.RunNamed
import proofs.«429096_j22737556865444_2_alg».proof.Proof.ScoresValue
import proofs.«429096_j22737556865444_2_alg».proof.Proof.GatherArr
import Idealize.ShloMosaic.Lib.StableHlo.Run

noncomputable section

open scoped BigOperators

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.GatherPay (hiOf loOf)

variable (m : (ℓ : Loc nD τ sig) → Buf (Elt Ideal) ℓ) (ρ : Dev nD → PrngReg)

/-- The path words reach the second region as launched. -/
theorem paths_eq (c : Dev nD) : V2 m ρ c main_arg2 = m ((c : Thread nD τ).loc main_arg2) := by
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m ρ c (Proc.devRef .tc main_arg2) := W1_of_ne m ρ c main_arg2 (by decide)
    _ = m ((c : Thread nD τ).loc main_arg2) := rfl

/-- The table the second region reads is the first region's score array reshaped. -/
theorem table_eq (c : Dev nD) : V2 m ρ c main_v1 = shapeCast S16x64x32x5 (W1 m ρ c (Proc.devRef .tc main_v0)) shapeCasts_S16x2048x5_S16x64x32x5 := by
  show StableHlo.after hostOps1 (W1 m ρ c) (Proc.devRef .tc main_v1) = _
  after_results
  rfl

/-- The reshaped score table at (b, h, lo, l) is the score array at (b, 32·h + lo, l): the two indices have one
    row-major position. -/
theorem reshape_apply (x : S16x2048x5.Idx → EReal) (b : Fin 16) (h : Fin 64) (lo : Fin 32) (l : Fin 5) :
    shapeCast S16x64x32x5 x shapeCasts_S16x2048x5_S16x64x32x5 (ix4 b h lo l)
      = x (ix3 b (⟨h.val * 32 + lo.val, by have := h.isLt; have := lo.isLt; omega⟩ : Fin 2048) l) := by
  refine shapeCast_apply x _ _ _ ?_
  rw [Shape.rowMajor_val_three, Shape.rowMajor_val_four]
  show (b.val * 2048 + (h.val * 32 + lo.val)) * 5 + l.val = ((b.val * 64 + h.val) * 32 + lo.val) * 5 + l.val
  ring

/-- An entry number is 32 times its quotient by 32 plus its remainder. -/
theorem split_entry (e : Fin 2048) :
    (⟨(hiOf e).val * 32 + (loOf e).val, by have := (hiOf e).isLt; have := (loOf e).isLt; omega⟩ : Fin 2048) = e :=
  Fin.ext (by show e.val / 32 * 32 + e.val % 32 = e.val; omega)

/-- The result array after the whole run: each element the encoded element of its five path words against its
    batch's score table, all read off the launch memory. The second region's array is the encoding over the table it
    was entered with; that table is the first region's score array reshaped; a reshaped entry (h, lo) is entry
    32·h + lo. -/
theorem result_eq (c : Dev nD) :
    W3 m ρ c (Proc.devRef .tc main_v2)
      = (fun i : S16x512x512.Idx => Cert.Spec.encElem
          (fun e l => Cert.Spec.scoresAt (m ((c : Thread nD τ).loc main_arg0)) (m ((c : Thread nD τ).loc main_arg1)) (i 0) e l)
          (fun l => (m ((c : Thread nD τ).loc main_arg2)) (ix4 (i 0) (i 1) (i 2) l))) := by
  refine (W3_arr m ρ c 2).trans ((Cert.KernelIdeal.GatherArr.enc_arr (V2 m ρ) c).trans ?_)
  funext i
  rw [paths_eq m ρ c, table_eq m ρ c]
  refine congrArg (fun look => Cert.Spec.encElem look _) (funext fun e => funext fun l => ?_)
  refine (reshape_apply _ (i 0) (hiOf e) (loOf e) l).trans ?_
  rw [split_entry]
  exact congrFun ((W1_arr m ρ c 2).trans (Cert.KernelIdeal.ScoresValue.scores_arr (V0 m ρ) c)) (ix3 (i 0) e l)

end Cert.KernelIdeal.Bridge

end
-- ==== Proof.RefValue.lean ====
import proofs.«429096_j22737556865444_2_alg».proof.Proof.Gen.ReferenceIdeal.Read
import proofs.«429096_j22737556865444_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The reference at one output index, in the specification's normal form.

  The reference computes, for p_l = paths[b, r, q, l] (l = 0 … 4):
    scores[b, e, l] = Σ_d emb[b, e, d] · vec[l, d],
    safe_l = p_l when 0 ≤ p_l ≤ 2047 (signed) and 0 otherwise,
    out[b, r, q] = ( 0 + Σ_l scores[b, safe_l, l] · valid(p_l) ) / ( float(Σ_l valid(p_l)) + ε ).
  Most operations act element by element (the generated stage lemmas say so). Three need an argument of their own:
  * the index triples (b, safe_l, l), joined from three arrays along a last axis of extent 3 — each component is
    non-negative, so the negative-index wrap `select (w < 0) (w + n) w` leaves it alone;
  * the gather of the score table at those triples — each component lies inside its axis (b < 16, safe_l < 2048, l < 5),
    so the clamp into the axis does nothing, and no batch or offset coordinate is added;
  * the integer sum of the five validity bits widened to words — a fold of word addition over five positions; the
    count is at most 5, so its signed reading is the sum of the bits' readings.
-/

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

/-! ## Words: the validity bit and the safe word -/

/-- The validity bit is set exactly when the word, read unsigned, is below 2048. -/
theorem validW_eq_one_iff (p : BitVec 32) : Cert.Spec.validW p = 1#1 ↔ p.toNat < 2048 := by
  have hp := p.isLt
  have hi := BitVec.toInt_eq_toNat_cond p
  unfold Cert.Spec.validW IntOp.andi IntOp.cmpi
  simp only [BitVec.sle]
  have z : (0#32).toInt = 0 := by decide
  have t : (2047#32).toInt = 2047 := by decide
  rw [z, t]
  by_cases h1 : 0 ≤ p.toInt <;> by_cases h2 : p.toInt ≤ 2047
  · simp only [h1, h2, decide_true, BitVec.ofBool_true]
    refine ⟨fun _ => ?_, fun _ => by decide⟩
    split at hi <;> omega
  · simp only [h1, h2, decide_true, decide_false, BitVec.ofBool_true, BitVec.ofBool_false]
    refine ⟨fun h => absurd h (by decide), fun h => ?_⟩
    split at hi <;> omega
  · simp only [h1, h2, decide_true, decide_false, BitVec.ofBool_true, BitVec.ofBool_false]
    refine ⟨fun h => absurd h (by decide), fun h => ?_⟩
    split at hi <;> omega
  · simp only [h1, h2, decide_false, BitVec.ofBool_false]
    refine ⟨fun h => absurd h (by decide), fun h => ?_⟩
    split at hi <;> omega

/-- The safe word is below 2048. -/
theorem safeW_lt (p : BitVec 32) : (Cert.Spec.safeW p).toNat < 2048 := by
  unfold Cert.Spec.safeW Scalar.select
  split
  · next h => exact (validW_eq_one_iff p).1 h
  · decide

/-- A word below 2³¹ is not negative as a signed integer. -/
theorem not_slt_zero_of_lt (w : BitVec 32) (h : w.toNat < 2 ^ 31) : IntOp.cmpi .slt w 0#32 = 0#1 := by
  have hi := BitVec.toInt_eq_toNat_cond w
  rw [if_pos (by omega)] at hi
  unfold IntOp.cmpi
  simp only [BitVec.slt]
  have z : (0#32).toInt = 0 := by decide
  rw [z, hi, decide_eq_false (by omega)]
  rfl

/-- Such a word read signed is the word read unsigned. -/
theorem toInt_toNat_of_lt (w : BitVec 32) (h : w.toNat < 2 ^ 31) : w.toInt.toNat = w.toNat := by
  have hi := BitVec.toInt_eq_toNat_cond w
  rw [if_pos (by omega)] at hi
  rw [hi]; rfl

/-! ## The three components of an index triple -/

variable {F : FTy → Type} [FloatOps F]

/-- Component 0 of an index triple is the batch number: the iota's word, which the negative-index wrap leaves alone. -/
theorem v27_apply (b : Fin 16) (r q : Fin 512) (l : Fin 5) (c : Fin 1) :
    val_main_v27 (F := F) (ix5 b r q l c) = BitVec.ofNat 32 b.val := by
  have hb : (BitVec.ofNat 32 b.val).toNat < 2 ^ 31 := by
    rw [BitVec.toNat_ofNat]; have := b.isLt; omega
  rw [val_main_v27_apply, val_main_v25_apply, val_main_v14_apply, val_main_v11_apply, val_main_v8_apply,
    val_main_v10_apply, val_main_c_2_apply, val_main_v7_apply]
  show Scalar.select (IntOp.cmpi .slt (BitVec.ofNat 32 b.val) 0#32) _ (BitVec.ofNat 32 b.val) = _
  rw [not_slt_zero_of_lt _ hb, select_zero]

/-- Component 2 is the step number, likewise. -/
theorem v29_apply (b : Fin 16) (r q : Fin 512) (l : Fin 5) (c : Fin 1) :
    val_main_v29 (F := F) (ix5 b r q l c) = BitVec.ofNat 32 l.val := by
  have hl : (BitVec.ofNat 32 l.val).toNat < 2 ^ 31 := by
    rw [BitVec.toNat_ofNat]; have := l.isLt; omega
  rw [val_main_v29_apply, val_main_v26_apply, val_main_v24_apply, val_main_v21_apply, val_main_v9_apply,
    val_main_v20_apply, val_main_c_6_apply]
  show Scalar.select (IntOp.cmpi .slt (BitVec.ofNat 32 l.val) 0#32) _ (BitVec.ofNat 32 l.val) = _
  rw [not_slt_zero_of_lt _ hl, select_zero]

/-- The validity mask of the reference at an index is the validity bit of the path word there. -/
theorem v4_apply (x2 : (⟨S16x512x512x5, .i32⟩ : BufTy).Contents (Elt F)) (i : S16x512x512x5.Idx) :
    val_main_v4 (F := F) x2 i = Cert.Spec.validW (x2 i) := by
  rw [val_main_v4_apply, val_main_v1_apply, val_main_v3_apply, val_main_v0_apply, val_main_v2_apply,
    val_main_c_apply, val_main_c_0_apply]
  rfl

/-- The reference's `where` gives the safe word. -/
theorem v5_apply (x2 : (⟨S16x512x512x5, .i32⟩ : BufTy).Contents (Elt F)) (i : S16x512x512x5.Idx) :
    val_main_v5 (F := F) x2 i = Cert.Spec.safeW (x2 i) := by
  rw [val_main_v5_apply, v4_apply, val_main_call0_v1_apply, val_main_call0_v0_apply, val_main_c_1_apply]
  rfl

/-- Component 1 is the safe path word: it is not negative, so the wrap leaves it alone. -/
theorem v28_apply (x2 : (⟨S16x512x512x5, .i32⟩ : BufTy).Contents (Elt F)) (b : Fin 16) (r q : Fin 512) (l : Fin 5) (c : Fin 1) :
    val_main_v28 (F := F) x2 (ix5 b r q l c) = Cert.Spec.safeW (x2 (ix4 b r q l)) := by
  have e : idx_main_v28 (ix5 b r q l c) = ix4 b r q l := funext fun a => Fin.ext (by
    match a with | ⟨0, _⟩ => rfl | ⟨1, _⟩ => rfl | ⟨2, _⟩ => rfl | ⟨3, _⟩ => rfl)
  have hs := safeW_lt (x2 (ix4 b r q l))
  rw [val_main_v28_apply, e, val_main_v19_apply, val_main_v16_apply, val_main_v15_apply, val_main_c_4_apply, v5_apply,
    not_slt_zero_of_lt _ (by omega), select_zero]

/-! ## The joined index triples -/

/-- The index triple at (b, r, q, l): its component 0 is the batch number … -/
theorem v30_apply_0 (x2 : (⟨S16x512x512x5, .i32⟩ : BufTy).Contents (Elt F)) (b : Fin 16) (r q : Fin 512) (l : Fin 5) :
    val_main_v30 (F := F) x2 (ix5 b r q l (0 : Fin 3)) = BitVec.ofNat 32 b.val := by
  unfold val_main_v30
  refine (concatenate_apply_piece (4 : Fin 5)
    [⟨S16x512x512x5x1, val_main_v27 (F := F)⟩, ⟨S16x512x512x5x1, val_main_v28 (F := F) x2⟩, ⟨S16x512x512x5x1, val_main_v29 (F := F)⟩]
    _ (ix5 b r q l (0 : Fin 3)) 0 (by show (0 : Nat) < 3; omega) S16x512x512x5x1
    (val_main_v27 (F := F)) rfl rfl 0 rfl (ix5 b r q l (0 : Fin 1)) (fun a ha => ?_) rfl).trans (v27_apply b r q l 0)
  match a with
  | ⟨0, _⟩ => rfl
  | ⟨1, _⟩ => rfl
  | ⟨2, _⟩ => rfl
  | ⟨3, _⟩ => rfl
  | ⟨4, _⟩ => exact absurd rfl ha

/-- … its component 1 the safe path word … -/
theorem v30_apply_1 (x2 : (⟨S16x512x512x5, .i32⟩ : BufTy).Contents (Elt F)) (b : Fin 16) (r q : Fin 512) (l : Fin 5) :
    val_main_v30 (F := F) x2 (ix5 b r q l (1 : Fin 3)) = Cert.Spec.safeW (x2 (ix4 b r q l)) := by
  unfold val_main_v30
  refine (concatenate_apply_piece (4 : Fin 5)
    [⟨S16x512x512x5x1, val_main_v27 (F := F)⟩, ⟨S16x512x512x5x1, val_main_v28 (F := F) x2⟩, ⟨S16x512x512x5x1, val_main_v29 (F := F)⟩]
    _ (ix5 b r q l (1 : Fin 3)) 1 (by show (1 : Nat) < 3; omega) S16x512x512x5x1
    (val_main_v28 (F := F) x2) rfl rfl 1 rfl (ix5 b r q l (0 : Fin 1)) (fun a ha => ?_) rfl).trans (v28_apply x2 b r q l 0)
  match a with
  | ⟨0, _⟩ => rfl
  | ⟨1, _⟩ => rfl
  | ⟨2, _⟩ => rfl
  | ⟨3, _⟩ => rfl
  | ⟨4, _⟩ => exact absurd rfl ha

/-- … and its component 2 the step number. -/
theorem v30_apply_2 (x2 : (⟨S16x512x512x5, .i32⟩ : BufTy).Contents (Elt F)) (b : Fin 16) (r q : Fin 512) (l : Fin 5) :
    val_main_v30 (F := F) x2 (ix5 b r q l (2 : Fin 3)) = BitVec.ofNat 32 l.val := by
  unfold val_main_v30
  refine (concatenate_apply_piece (4 : Fin 5)
    [⟨S16x512x512x5x1, val_main_v27 (F := F)⟩, ⟨S16x512x512x5x1, val_main_v28 (F := F) x2⟩, ⟨S16x512x512x5x1, val_main_v29 (F := F)⟩]
    _ (ix5 b r q l (2 : Fin 3)) 2 (by show (2 : Nat) < 3; omega) S16x512x512x5x1
    (val_main_v29 (F := F)) rfl rfl 2 rfl (ix5 b r q l (0 : Fin 1)) (fun a ha => ?_) rfl).trans (v29_apply b r q l 0)
  match a with
  | ⟨0, _⟩ => rfl
  | ⟨1, _⟩ => rfl
  | ⟨2, _⟩ => rfl
  | ⟨3, _⟩ => rfl
  | ⟨4, _⟩ => exact absurd rfl ha

/-! ## The gather of the score table -/

/-- The gather's dimension numbers. -/
abbrev G := gather_S16x2048x5_S16x512x512x5x3_S16x512x512x5_n_012_n_n_012_4_111

/-! The start of the slice on each score-table axis for result index (b, r, q, l): that component of the index triple there,
    read signed and clamped into the axis. -/

theorem G_start_0 (idx : IVec S16x512x512x5x3 32) (b : Fin 16) (r q : Fin 512) (l : Fin 5) :
    G.start (ix4 b r q l) idx (0 : Fin 3)
      = min (idx (ix5 b r q l (0 : Fin 3))).toInt.toNat (S16x2048x5.size (0 : Fin 3) - 1) := by
  unfold GatherDims.start
  rw [dif_pos (show (0 : Fin 3) ∈ G.startIndexMap by decide)]
  have hsi : G.siIdx (ix4 b r q l) ⟨List.idxOf (0 : Fin 3) G.startIndexMap, List.idxOf_lt_length_iff.2 (by decide)⟩
      = ix5 b r q l (0 : Fin 3) := by
    funext c; refine Fin.ext ?_
    match c with
    | ⟨0, _⟩ => rfl
    | ⟨1, _⟩ => rfl
    | ⟨2, _⟩ => rfl
    | ⟨3, _⟩ => rfl
    | ⟨4, _⟩ => rfl
  rw [hsi]; rfl

theorem G_start_1 (idx : IVec S16x512x512x5x3 32) (b : Fin 16) (r q : Fin 512) (l : Fin 5) :
    G.start (ix4 b r q l) idx (1 : Fin 3)
      = min (idx (ix5 b r q l (1 : Fin 3))).toInt.toNat (S16x2048x5.size (1 : Fin 3) - 1) := by
  unfold GatherDims.start
  rw [dif_pos (show (1 : Fin 3) ∈ G.startIndexMap by decide)]
  have hsi : G.siIdx (ix4 b r q l) ⟨List.idxOf (1 : Fin 3) G.startIndexMap, List.idxOf_lt_length_iff.2 (by decide)⟩
      = ix5 b r q l (1 : Fin 3) := by
    funext c; refine Fin.ext ?_
    match c with
    | ⟨0, _⟩ => rfl
    | ⟨1, _⟩ => rfl
    | ⟨2, _⟩ => rfl
    | ⟨3, _⟩ => rfl
    | ⟨4, _⟩ => rfl
  rw [hsi]; rfl

theorem G_start_2 (idx : IVec S16x512x512x5x3 32) (b : Fin 16) (r q : Fin 512) (l : Fin 5) :
    G.start (ix4 b r q l) idx (2 : Fin 3)
      = min (idx (ix5 b r q l (2 : Fin 3))).toInt.toNat (S16x2048x5.size (2 : Fin 3) - 1) := by
  unfold GatherDims.start
  rw [dif_pos (show (2 : Fin 3) ∈ G.startIndexMap by decide)]
  have hsi : G.siIdx (ix4 b r q l) ⟨List.idxOf (2 : Fin 3) G.startIndexMap, List.idxOf_lt_length_iff.2 (by decide)⟩
      = ix5 b r q l (2 : Fin 3) := by
    funext c; refine Fin.ext ?_
    match c with
    | ⟨0, _⟩ => rfl
    | ⟨1, _⟩ => rfl
    | ⟨2, _⟩ => rfl
    | ⟨3, _⟩ => rfl
    | ⟨4, _⟩ => rfl
  rw [hsi]; rfl

/-- THE GATHER READ AT (b, r, q, l): the score table at (b, the row the safe path word selects, l). The three start-index
    components are b < 16, the safe word < 2048 and l < 5, all non-negative, so no clamp acts; the result has no batch or
    offset coordinate. -/
theorem v31_apply (x0 : (⟨S16x2048x64, .f32⟩ : BufTy).Contents (Elt F)) (x1 : (⟨S5x64, .f32⟩ : BufTy).Contents (Elt F))
    (x2 : (⟨S16x512x512x5, .i32⟩ : BufTy).Contents (Elt F)) (b : Fin 16) (r q : Fin 512) (l : Fin 5) :
    val_main_v31 (F := F) x0 x1 x2 (ix4 b r q l)
      = val_main_v6 (F := F) x0 x1 (ix3 b (Cert.Spec.safeIdx (x2 (ix4 b r q l))) l) := by
  unfold val_main_v31 Host.gather
  congr 1
  funext a
  refine Fin.ext ?_
  match a with
  | ⟨0, _⟩ =>
    show G.start (ix4 b r q l) (val_main_v30 (F := F) x2) (0 : Fin 3) + G.batchCoord (ix4 b r q l) (0 : Fin 3)
      + G.offCoord (ix4 b r q l) (0 : Fin 3) = b.val
    have hb : (BitVec.ofNat 32 b.val).toNat < 2 ^ 31 := by
      rw [BitVec.toNat_ofNat]; have := b.isLt; omega
    rw [G.batchCoord_eq_zero (ix4 b r q l) (0 : Fin 3) List.not_mem_nil,
      G.offCoord_eq_zero (ix4 b r q l) (0 : Fin 3) (fun h => ((G.mem_sKept _).mp h).1 (by decide)),
      G_start_0, v30_apply_0, toInt_toNat_of_lt _ hb, BitVec.toNat_ofNat]
    show min (b.val % 2 ^ 32) (16 - 1) + 0 + 0 = b.val
    have := b.isLt; omega
  | ⟨1, _⟩ =>
    show G.start (ix4 b r q l) (val_main_v30 (F := F) x2) (1 : Fin 3) + G.batchCoord (ix4 b r q l) (1 : Fin 3)
      + G.offCoord (ix4 b r q l) (1 : Fin 3) = (Cert.Spec.safeW (x2 (ix4 b r q l))).toNat % 2048
    have hs := safeW_lt (x2 (ix4 b r q l))
    rw [G.batchCoord_eq_zero (ix4 b r q l) (1 : Fin 3) List.not_mem_nil,
      G.offCoord_eq_zero (ix4 b r q l) (1 : Fin 3) (fun h => ((G.mem_sKept _).mp h).1 (by decide)),
      G_start_1, v30_apply_1, toInt_toNat_of_lt _ (by omega)]
    show min (Cert.Spec.safeW (x2 (ix4 b r q l))).toNat (2048 - 1) + 0 + 0 = _
    omega
  | ⟨2, _⟩ =>
    show G.start (ix4 b r q l) (val_main_v30 (F := F) x2) (2 : Fin 3) + G.batchCoord (ix4 b r q l) (2 : Fin 3)
      + G.offCoord (ix4 b r q l) (2 : Fin 3) = l.val
    have hl : (BitVec.ofNat 32 l.val).toNat < 2 ^ 31 := by
      rw [BitVec.toNat_ofNat]; have := l.isLt; omega
    rw [G.batchCoord_eq_zero (ix4 b r q l) (2 : Fin 3) List.not_mem_nil,
      G.offCoord_eq_zero (ix4 b r q l) (2 : Fin 3) (fun h => ((G.mem_sKept _).mp h).1 (by decide)),
      G_start_2, v30_apply_2, toInt_toNat_of_lt _ hl, BitVec.toNat_ofNat]
    show min (l.val % 2 ^ 32) (5 - 1) + 0 + 0 = l.val
    have := l.isLt; omega

/-! ## The integer count of valid steps -/

/-- A fold of a commutative, associative operation over five positions, written out from the left. -/
theorem fold_univ_fin5 {α : Type} (f : α → α → α) [Std.Commutative f] [Std.Associative f] (b : α) (g : Fin 5 → α) :
    (Finset.univ : Finset (Fin 5)).fold f b g = f (f (f (f (f b (g 0)) (g 1)) (g 2)) (g 3)) (g 4) := by
  simp only [Fin.univ_succ, Finset.fold_cons, Finset.fold_map, Finset.univ_unique, Finset.fold_singleton]
  show f (g 0) (f (g 1) (f (g 2) (f (g 3) (f (g 4) b)))) = _
  ac_rfl

/-- THE INTEGER COUNT AT (b, r, q): the five validity bits of the path words at (b, r, q, ·), each widened to a word,
    added from zero. -/
theorem v33_apply (x2 : (⟨S16x512x512x5, .i32⟩ : BufTy).Contents (Elt F)) (b : Fin 16) (r q : Fin 512) :
    val_main_v33 (F := F) x2 (ix3 b r q)
      = ((((0#32 + (Cert.Spec.validW (x2 (ix4 b r q 0))).setWidth 32) + (Cert.Spec.validW (x2 (ix4 b r q 1))).setWidth 32)
          + (Cert.Spec.validW (x2 (ix4 b r q 2))).setWidth 32) + (Cert.Spec.validW (x2 (ix4 b r q 3))).setWidth 32)
          + (Cert.Spec.validW (x2 (ix4 b r q 4))).setWidth 32 := by
  have h : S16x512x512x5.Reduces [(3 : Fin 4)] S16x512x512 := by decide
  unfold val_main_v33
  rw [Host.reduce_eq_fold_single IntOp.addi _ _ reducesTo_S16x512x512x5_S16x512x512_d3 h h_S_]
  have hf : (fun k : Fin 5 => val_main_v32 (F := F) x2 (h.lift (ix3 b r q) k))
      = fun k : Fin 5 => (Cert.Spec.validW (x2 (ix4 b r q k))).setWidth 32 := funext fun (k : Fin 5) => by
    have e : h.lift (ix3 b r q) k = ix4 b r q k := funext fun a => Fin.ext (by
      match a with | ⟨0, _⟩ => rfl | ⟨1, _⟩ => rfl | ⟨2, _⟩ => rfl | ⟨3, _⟩ => rfl)
    rw [e, val_main_v32_apply, v4_apply]
  exact (congrArg (fun g => (Finset.univ : Finset (Fin 5)).fold IntOp.addi (val_main_c_8 (F := F) (Shape.Idx.first h_S_)) g) hf).trans
    (fold_univ_fin5 IntOp.addi 0#32 _)

/-- The count of five bits does not wrap: the sum of the five widened bits, read signed, is the sum of their signed
    readings (each 0 or 1). -/
theorem toInt_count_five (a b c d e : BitVec 1) :
    (((((0#32 + a.setWidth 32) + b.setWidth 32) + c.setWidth 32) + d.setWidth 32) + e.setWidth 32).toInt
      = (a.setWidth 32).toInt + (b.setWidth 32).toInt + (c.setWidth 32).toInt + (d.setWidth 32).toInt + (e.setWidth 32).toInt := by
  rcases BitVec.eq_zero_or_eq_one a with rfl | rfl <;> rcases BitVec.eq_zero_or_eq_one b with rfl | rfl <;>
    rcases BitVec.eq_zero_or_eq_one c with rfl | rfl <;> rcases BitVec.eq_zero_or_eq_one d with rfl | rfl <;>
    rcases BitVec.eq_zero_or_eq_one e with rfl | rfl <;> decide

/-- The same as extended reals, in the order the specification adds them from zero. -/
theorem coe_count_five (a b c d e : BitVec 1) :
    (((((((0#32 + a.setWidth 32) + b.setWidth 32) + c.setWidth 32) + d.setWidth 32) + e.setWidth 32).toInt : ℝ) : EReal)
      = ((((0 + (((a.setWidth 32).toInt : ℝ) : EReal)) + (((b.setWidth 32).toInt : ℝ) : EReal))
          + (((c.setWidth 32).toInt : ℝ) : EReal)) + (((d.setWidth 32).toInt : ℝ) : EReal)) + (((e.setWidth 32).toInt : ℝ) : EReal) := by
  rw [toInt_count_five, zero_add]
  simp only [Int.cast_add, EReal.coe_add]

/-- A bit read unsigned is the bit widened to a word and read signed: 0 or 1 either way. -/
theorem bit_toNat_eq (a : BitVec 1) : ((a.toNat : ℝ) : EReal) = (((a.setWidth 32).toInt : ℝ) : EReal) := by
  rcases BitVec.eq_zero_or_eq_one a with rfl | rfl
  · have h1 : (0#1).toNat = 0 := rfl
    have h2 : ((0#1).setWidth 32).toInt = 0 := by decide
    rw [h1, h2]; simp
  · have h1 : (1#1).toNat = 1 := rfl
    have h2 : ((1#1).setWidth 32).toInt = 1 := by decide
    rw [h1, h2]; simp

/-! ## The result -/

/-- The score array at (b, e, l) is the specification's inner product. -/
theorem v6_apply (x0 : (⟨S16x2048x64, .f32⟩ : BufTy).Contents (Elt Ideal)) (x1 : (⟨S5x64, .f32⟩ : BufTy).Contents (Elt Ideal))
    (b : Fin 16) (e : Fin 2048) (l : Fin 5) :
    val_main_v6 (F := Ideal) x0 x1 (ix3 b e l) = Cert.Spec.scoresAt x0 x1 b e l := by
  rw [val_main_v6_apply]
  unfold Cert.Spec.scoresAt
  refine Finset.sum_congr rfl fun d _ => ?_
  have el : lidx_main_v6 (ix3 b e l) d = ix3 b e d := funext fun a => Fin.ext (by
    match a with | ⟨0, _⟩ => rfl | ⟨1, _⟩ => rfl | ⟨2, _⟩ => rfl)
  have er : ridx_main_v6 (ix3 b e l) d = ix2 l d := funext fun a => Fin.ext (by
    match a with | ⟨0, _⟩ => rfl | ⟨1, _⟩ => rfl)
  rw [el, er]

/-- One summand of the numerator: the looked-up score times the validity bit as an extended real. -/
theorem v38_apply (x0 : (⟨S16x2048x64, .f32⟩ : BufTy).Contents (Elt Ideal)) (x1 : (⟨S5x64, .f32⟩ : BufTy).Contents (Elt Ideal))
    (x2 : (⟨S16x512x512x5, .i32⟩ : BufTy).Contents (Elt Ideal)) (b : Fin 16) (r q : Fin 512) (l : Fin 5) :
    val_main_v38 (F := Ideal) x0 x1 x2 (ix4 b r q l)
      = Cert.Spec.scoresAt x0 x1 b (Cert.Spec.safeIdx (x2 (ix4 b r q l))) l * Cert.Spec.vf (x2 (ix4 b r q l)) := by
  rw [val_main_v38_apply, v31_apply, v6_apply, val_main_v37_apply, v4_apply]
  show _ * (((Cert.Spec.validW (x2 (ix4 b r q l))).toNat : ℝ) : EReal) = _
  rw [bit_toNat_eq]
  rfl

/-- The reference's result at (b, r, q): the encoded element of the five path words at (b, r, q, ·) against batch b
    of the score table. -/
theorem ref_apply (x0 : (⟨S16x2048x64, .f32⟩ : BufTy).Contents (Elt Ideal)) (x1 : (⟨S5x64, .f32⟩ : BufTy).Contents (Elt Ideal))
    (x2 : (⟨S16x512x512x5, .i32⟩ : BufTy).Contents (Elt Ideal)) (b : Fin 16) (r : Fin 512) (q : Fin 512) :
    val_main_v40 (F := Ideal) x0 x1 x2 (ix3 b r q)
      = Cert.Spec.encElem (fun e l => Cert.Spec.scoresAt x0 x1 b e l) (fun l => x2 (ix4 b r q l)) := by
  have ei : ∀ k : Fin 5, idx_main_v39 (ix3 b r q) k = ix4 b r q k := fun k => funext fun a => Fin.ext (by
    match a with | ⟨0, _⟩ => rfl | ⟨1, _⟩ => rfl | ⟨2, _⟩ => rfl | ⟨3, _⟩ => rfl)
  rw [val_main_v40_apply, val_main_v39_apply, val_main_v36_apply, val_main_v34_apply, val_main_v35_apply, val_main_cst_apply,
    val_main_cst_9_apply, Fin.sum_univ_five, ei 0, ei 1, ei 2, ei 3, ei 4, v33_apply]
  simp only [v38_apply]
  unfold Cert.Spec.encElem
  show Ideal.div (Ideal.ofBits .f32 0x00000000#32 + (_ + _ + _ + _ + _))
      ((((_ : BitVec 32).toInt : ℝ) : EReal) + Ideal.ofBits .f32 0x3089705F#32) = Ideal.div _ _
  rw [Ideal.ofBits_zero_f32, coe_count_five]
  simp only [zero_add, Cert.Spec.vf]

end Cert.ReferenceIdeal.RefValue

end
-- ==== Proof.lean ====
/-
  The kernel computes, in two pipelined regions, (1) the score table scores[b, e, l] = Σ_d emb[b, e, d] · vec[l, d] and
  (2) for every (b, r, q) the masked mean over the five path steps of the table entries the path words select:
  a word p is valid when 0 ≤ p ≤ 2047, the entry looked up is row safe(p) (p when valid, else 0) of step l's
  column, and out = (Σ_l entry_l · valid_l) / (Σ_l valid_l + ε). The kernel finds the entry without a gather: it
  splits the row number into (row / 32, row % 32), selects row / 32 by a one-hot product against the table reshaped
  to (64, 32) — a sum with exactly one non-zero term, and 0 · x = 0 for every extended real — and selects the
  column by a one-hot product summed over the 32 lanes. The reference gathers the entry directly, counts the valid
  steps as an integer before converting, and sums the five products in one reduction. Over the extended reals both
  are one function of the arguments (Cert.Spec.encElem over Cert.Spec.scoresAt): the two frames of the kernel are
  the generated ones, the reference's frame is its generated run, nothing was idealized (the ledger is empty), and
  the value claim joins the kernel's run with its result named (the regions' arrays read back block by block) to the
  reference's run read operation by operation.
-/
import proofs.«429096_j22737556865444_2_alg».proof.Defs
import proofs.«429096_j22737556865444_2_alg».proof.Proof.Gen.Kernel
import proofs.«429096_j22737556865444_2_alg».proof.Proof.Gen.Kernel.Skeleton
import proofs.«429096_j22737556865444_2_alg».proof.Proof.Gen.Kernel.Launch
import proofs.«429096_j22737556865444_2_alg».proof.Proof.Gen.Kernel.Points
import proofs.«429096_j22737556865444_2_alg».proof.Proof.Gen.Kernel.Frame
import proofs.«429096_j22737556865444_2_alg».proof.Proof.Gen.KernelIdeal
import proofs.«429096_j22737556865444_2_alg».proof.Proof.Gen.KernelIdeal.Skeleton
import proofs.«429096_j22737556865444_2_alg».proof.Proof.Gen.KernelIdeal.Launch
import proofs.«429096_j22737556865444_2_alg».proof.Proof.Gen.KernelIdeal.Points
import proofs.«429096_j22737556865444_2_alg».proof.Proof.Gen.KernelIdeal.Frame
import proofs.«429096_j22737556865444_2_alg».proof.Proof.Gen.ReferenceIdeal
import proofs.«429096_j22737556865444_2_alg».proof.Proof.Gen.Pre_finite_inputs
import proofs.«429096_j22737556865444_2_alg».proof.Proof.Gen.ReferenceIdeal.Run
import proofs.«429096_j22737556865444_2_alg».proof.Proof.Gen.ReferenceIdeal.Read
import proofs.«429096_j22737556865444_2_alg».proof.Proof.RunNamed
import proofs.«429096_j22737556865444_2_alg».proof.Proof.Bridge
import proofs.«429096_j22737556865444_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- Both idealized programs end with the result array holding, at (b, r, q), the encoded element of the five path
    words at (b, r, q, ·) against batch b of the score table of the (agreeing) arguments. -/
theorem algebraic : Cert.algebraic_KernelIdeal_ReferenceIdeal := by
  intro m ρ m' ρ' _ hagree
  refine ⟨fun c => Cert.KernelIdeal.Gen.W3 m ρ c (Proc.devRef .tc Cert.KernelIdeal.main_v2),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]
  refine Eq.trans ?_ (Cert.KernelIdeal.Bridge.result_eq m ρ c).symm
  funext i
  obtain ⟨b, r, q, rfl⟩ : ∃ (b : Fin 16) (r : Fin 512) (q : Fin 512), i = ix3 b r q := ⟨i 0, i 1, i 2, eq_ix3 i⟩
  exact Cert.ReferenceIdeal.RefValue.ref_apply _ _ _ b r q

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
